-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x4096x512 .f32) (main_arg1 : FVec F S4x4096x4096 .f32) (main_arg2 : FVec F S512x512 .f32) (main_arg3 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S1x512 : Shape := ⟨2, ![1, 512]⟩
abbrev S1x1024x512 : Shape := ⟨3, ![1, 1024, 512]⟩
abbrev S1x1024x4096 : Shape := ⟨3, ![1, 1024, 4096]⟩
abbrev S2x4096x512 : Shape := ⟨3, ![2, 4096, 512]⟩
abbrev S1024x512 : Shape := ⟨2, ![1024, 512]⟩
abbrev S1024x4096 : Shape := ⟨2, ![1024, 4096]⟩
abbrev S1x4096x512 : Shape := ⟨3, ![1, 4096, 512]⟩
abbrev S4096x512 : Shape := ⟨2, ![4096, 512]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x512, .f32⟩
  | .hbm, ⟨1, _⟩ => ⟨S4x4096x4096, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S4x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S1x512, .f32⟩
  | .local _ .vmem, ⟨4, _⟩ => ⟨S1x1024x4096, .f32⟩
  | .local _ .vmem, ⟨5, _⟩ => ⟨S1x1024x4096, .f32⟩
  | .local _ .vmem, ⟨6, _⟩ => ⟨S1x1024x512, .f32⟩
  | .local _ .vmem, ⟨7, _⟩ => ⟨S1x1024x512, .f32⟩
  | .local _ .vmem, ⟨8, _⟩ => ⟨S2x4096x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c2_i32 : BitVec 32 := 2#32
  let v6 : BitVec 32 := Scalar.remsi arg0 c2_i32
  let v15 : Index := Scalar.indexCast v6
  let arg1 : BitVec 32 := BitVec.ofNat 32 (i 1).val
  let c1024_i32 : BitVec 32 := 1024#32
  let v14 : BitVec 32 := Scalar.muli arg1 c1024_i32
  let v16 : Index := Scalar.indexCast v14
  let c0_6 : Index := 0#32
  ![v15.toNat, v16.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v6 : BitVec 32 := Scalar.addi arg0 c1_i32
  let c2_i32 : BitVec 32 := 2#32
  let v7 : BitVec 32 := Scalar.remsi v6 c2_i32
  let v11 : Index := Scalar.indexCast v7
  let c0_4 : Index := 0#32
  let c0_5 : Index := 0#32
  ![v11.toNat, 0, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .eq arg0 c4_i32
  let c3_i32_0 : BitVec 32 := 3#32
  let v2 : BitVec 32 := Scalar.select v1 c3_i32_0 arg1
  let c0_i32 : BitVec 32 := 0#32
  let c0_i32_1 : BitVec 32 := 0#32
  ![v0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S1024x512_S1x1024x512 : S1024x512.ShapeCasts S1x1024x512
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  h_S1x4096x512 : 0 < S1x4096x512.numel
  shapeCasts_S1x4096x512_S4096x512 : S1x4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  dot_S1024x4096_S4096x512_S1024x512_1_0_0_1_n_n_wf : DotDims.WF S1024x4096 S4096x512 S1024x512 [1] [0] [0] [1] [] []
  hrank0 : 0 < grid0.rank
  k0_off1_inb : ∀ i : grid0.Coords, ∀ (k0_h1 : k0_cond1 i = 1#1), ∀ a, (k0_off1 i) a + S1x1024x512.size a ≤ S2x4096x512.size a
  k0_off1_packedbf16 : ∀ i : grid0.Coords, ∀ (k0_h1 : k0_cond1 i = 1#1), (Rect.unit (s := S2x4096x512) (k0_off1 i) S1x1024x512.size (k0_off1_inb i k0_h1)).PackedRows (EltTy.packing .bf16)
  k0_off2_inb : ∀ i : grid0.Coords, ∀ (k0_h2 : k0_cond2 i = 1#1), ∀ a, (k0_off2 i) a + S1x4096x512.size a ≤ S2x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x4096x512.size a
  hwx0_0 : ∀ i : grid0.Coords, EltTy.bits .f32 = 32 ∨ (Rect.block (s := S4x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x4096.size a ≤ S4x4096x4096.size a
  hwx0_3 : ∀ i : grid0.Coords, EltTy.bits .f32 = 32 ∨ (Rect.block (s := S4x4096x4096) S1x1024x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S4x4096x512.size a
  hwx0_4 : ∀ i : grid0.Coords, EltTy.bits .f32 = 32 ∨ (Rect.block (s := S4x4096x512) S1x1024x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S1x1x512 : Shape := ⟨3, ![1, 1, 512]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x4096, .f32⟩
  | .hbm, ⟨2, _⟩ => ⟨S512x512, .f32⟩
  | .hbm, ⟨3, _⟩ => ⟨S512, .f32⟩
  | .hbm, ⟨4, _⟩ => ⟨S4x4096x512, .f32⟩
  | .hbm, ⟨5, _⟩ => ⟨S4x4096x512, .f32⟩
  | .hbm, ⟨6, _⟩ => ⟨S1x1x512, .f32⟩
  | .hbm, ⟨7, _⟩ => ⟨S4x4096x512, .f32⟩
  | .hbm, ⟨8, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  dot_S4x4096x512_S512x512_S4x4096x512_2_0_01_1_n_n_wf : DotDims.WF S4x4096x512 S512x512 S4x4096x512 [2] [0] [0, 1] [1] [] []
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_0_01_1_n_n : DotDims S4x4096x512 S512x512 S4x4096x512 where
  lhsContracting := [2]
  rhsContracting := [0]
  lhsNonContracting := [0, 1]
  rhsNonContracting := [1]
  lhsBatch := []
  rhsBatch := []
  wf := dot_S4x4096x512_S512x512_S4x4096x512_2_0_01_1_n_n_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.KSched.lean ====
/-
  The schedule of the layer's one kernel on its grid of 5 × 4 = 20 points, point `t` being batch phase `t / 4`, row
  block `t % 4`. The body has two guarded halves. The FILL half runs in phases 0..3 (points 0..15): it multiplies the
  1024 feature rows of the point's block by the weight and stores the product into the scratch, in slot `(t / 4) % 2`
  at rows `(t % 4) · 1024 ..`. The MIX half runs in phases 1..4 (points 4..19): it multiplies the point's 1024
  adjacency rows by the whole slab of the OTHER slot, `(t / 4 + 1) % 2`, adds the bias row and stores the output
  block. Here: the two guards and the two scratch offsets in closed form over the grid; where the output window is
  idle (phase 0, where nothing is stored into it and nothing is written back); the names of the staging memrefs a
  point is called with; and one fact about a single store through a view, read back as an overlay.
-/
import proofs.«177299_g15573551415441_cont_week2b_14_32_alg».proof.Proof.Gen.Kernel.Frame
import proofs.«177299_g15573551415441_cont_week2b_14_32_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One store through a view -/

/-- What a buffer reads through a view after ONE store of `w` through the rectangle `r`: what it read before, with
    `w` laid over `r`. -/
theorem read_one_write {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y [⟨r, w⟩] (fun p hp => by
      rw [List.mem_singleton] at hp; subst hp; exact hy), Rect.overlay_of_not_mem _ _ _ hy]

/-! ## The guards and the offsets over the grid -/

/-- The fill half runs at the points of phases 0..3. -/
theorem fill_iff : ∀ t : Fin cfg0.N, k0_cond1 (grid0.coords t) = 1#1 ↔ t.val < 16 :=
  (by decide +kernel : ∀ t : Fin grid0.N, k0_cond1 (grid0.coords t) = 1#1 ↔ t.val < 16)

/-- The mix half runs at the points of phases 1..4. -/
theorem mix_iff : ∀ t : Fin cfg0.N, k0_cond2 (grid0.coords t) = 1#1 ↔ 4 ≤ t.val :=
  (by decide +kernel : ∀ t : Fin grid0.N, k0_cond2 (grid0.coords t) = 1#1 ↔ 4 ≤ t.val)

/-- Where the fill half stores: slot `(t / 4) % 2`, rows from `(t % 4) · 1024`, all columns. -/
theorem fill_off : ∀ (t : Fin cfg0.N) (a : Fin 3), k0_off1 (grid0.coords t) a = (![(t.val / 4) % 2, (t.val % 4) * 1024, 0] : Fin 3 → ℕ) a :=
  (by decide +kernel : ∀ (t : Fin grid0.N) (a : Fin 3), k0_off1 (grid0.coords t) a = (![(t.val / 4) % 2, (t.val % 4) * 1024, 0] : Fin 3 → ℕ) a)

/-- Where the mix half loads: slot `(t / 4 + 1) % 2`, from row 0, all columns. -/
theorem mix_off : ∀ (t : Fin cfg0.N) (a : Fin 3), k0_off2 (grid0.coords t) a = (![(t.val / 4 + 1) % 2, 0, 0] : Fin 3 → ℕ) a :=
  (by decide +kernel : ∀ (t : Fin grid0.N) (a : Fin 3), k0_off2 (grid0.coords t) a = (![(t.val / 4 + 1) % 2, 0, 0] : Fin 3 → ℕ) a)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem live_bias : ∀ t : Fin cfg0.N, cfg0.idle 2 (grid0.coords t) = false := by decide +kernel
theorem live_adj : ∀ t : Fin cfg0.N, cfg0.idle 3 (grid0.coords t) = false := by decide +kernel
/-- In phase 0 nothing is stored into the output window: it is idle there, -/
theorem idle_out : ∀ t : Fin cfg0.N, t.val < 4 → cfg0.idle 4 (grid0.coords t) = true := by decide +kernel
/-- and its block is not written back there; -/
theorem noflush_out : ∀ t : Fin cfg0.N, t.val < 4 → (cfg0.win 4).flush t = false := by decide +kernel
/-- from phase 1 on it is live. -/
theorem live_out : ∀ t : Fin cfg0.N, 4 ≤ t.val → cfg0.idle 4 (grid0.coords t) = false := by decide +kernel

/-! ## The memrefs a point is called with -/

abbrev mX (t : Fin cfg0.N) : Memref sig .tc .vmem S1x1024x512 .f32 := win0_0.stage (cfg0.slots t 0)
abbrev hX (t : Fin cfg0.N) : (mX t).IsWhole := Facts₀.hstage0_0 ((cfg0.slots t 0).cast Facts₀.nbuf0_0)
abbrev mW (t : Fin cfg0.N) : Memref sig .tc .vmem S512x512 .f32 := win0_1.stage (cfg0.slots t 1)
abbrev hW (t : Fin cfg0.N) : (mW t).IsWhole := Facts₀.hstage0_1 ((cfg0.slots t 1).cast Facts₀.nbuf0_1)
abbrev mB (t : Fin cfg0.N) : Memref sig .tc .vmem S1x512 .f32 := win0_2.stage (cfg0.slots t 2)
abbrev hB (t : Fin cfg0.N) : (mB t).IsWhole := Facts₀.hstage0_2 ((cfg0.slots t 2).cast Facts₀.nbuf0_2)
abbrev mA (t : Fin cfg0.N) : Memref sig .tc .vmem S1x1024x4096 .f32 := win0_3.stage (cfg0.slots t 3)
abbrev hA (t : Fin cfg0.N) : (mA t).IsWhole := Facts₀.hstage0_3 ((cfg0.slots t 3).cast Facts₀.nbuf0_3)
abbrev mO (t : Fin cfg0.N) : Memref sig .tc .vmem S1x1024x512 .f32 := win0_4.stage (cfg0.slots t 4)
abbrev hO (t : Fin cfg0.N) : (mO t).IsWhole := Facts₀.hstage0_4 ((cfg0.slots t 4).cast Facts₀.nbuf0_4)
/-- The scratch: two slots of 4096 × 512, a whole buffer of the kernel's own. -/
abbrev mS : Memref sig .tc .vmem S2x4096x512 .bf16 := Memref.whole cc0_scratch0
abbrev hS : (mS).IsWhole := Memref.isWhole_whole _

/-- The region invariant of a kernel that names nothing between points — the scoped buffers that are no staging
    buffer at some contents and the generator register at some state — is, for this kernel, the scratch owned at some
    contents beside the register. -/
theorem scratch_any (c : Dev nD) :
    (Pipeline.ΦA spec0 c : sProp 𝕄)
      = iprop(iprop((∃ d, owns (c : Thread nD τ) mS fullShare d)) ∗ (∃ r, prngReg c r)) := by
  unfold Pipeline.ΦA; rw [scopedRest0_eq]; simp only [mS, owns_whole]; try rfl

end Cert.Kernel.Body

end
-- ==== Proof.KRuns.lean ====
/-
  The body of the layer's kernel run at one grid point, in each of the three ways its two guards fall over the grid:
  phase 0 (fill only), phases 1..3 (fill, then mix), phase 4 (mix only). Each statement hands the body its four input
  blocks, the output block's buffer and the scratch at NAMED contents, and says what it hands back: the inputs as
  they were; the scratch with the point's 1024 product rows laid over what it held (`fillInto`), or untouched where
  the fill half does not run; the output buffer at the mixed block (`mixOut`), or untouched where the mix half does
  not run. In phases 1..3 the mix half reads the scratch AFTER the point's own fill; the two halves use opposite slots.
-/
import proofs.«177299_g15573551415441_cont_week2b_14_32_alg».proof.Proof.KSched
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch after the fill half at grid point `i`: what it held (`xs`), with the product of the point's feature
    block `x0` and the weight `x1` laid over the point's 1024 rows of the point's slot. -/
def fillInto (i : grid0.Coords) (hc0 : k0_cond1 i = 1#1) (x0 : Vec F S1x1024x512 .f32) (x1 : Vec F S512x512 .f32)
    (xs : Vec F S2x4096x512 .bf16) : Vec F S2x4096x512 .bf16 :=
  (Rect.unit (s := S2x4096x512) (k0_off1 i) S1x1024x512.size (Facts₀.k0_off1_inb i hc0)).overlay xs (k0_pay1 x0 x1)

/-- The output block the mix half stores at grid point `i`: the point's adjacency rows `x3` times the slab the
    scratch `xs` holds in the slot the point reads, plus the bias row `x2`. -/
def mixOut (i : grid0.Coords) (hc1 : k0_cond2 i = 1#1) (x2 : Vec F S1x512 .f32) (x3 : Vec F S1x1024x4096 .f32)
    (xs : Vec F S2x4096x512 .bf16) : Vec F S1x1024x512 .f32 :=
  k0_pay2 x3 (View.ld (Val := Elt F) xs (Rect.unit (s := S2x4096x512) (k0_off2 i) S1x4096x512.size (Facts₀.k0_off2_inb i hc1))) x2

theorem zeros3 : (![0, 0, 0] : Fin 3 → ℕ) = fun _ => 0 := funext fun a => by
  match a with
  | ⟨0, _⟩ => rfl
  | ⟨1, _⟩ => rfl
  | ⟨2, _⟩ => rfl
theorem zeros2 : (![0, 0] : Fin 2 → ℕ) = fun _ => 0 := funext fun a => by
  match a with
  | ⟨0, _⟩ => rfl
  | ⟨1, _⟩ => rfl

set_option maxHeartbeats 1000000 in
/-- Phases 1..3: both halves run. -/
theorem run_both (c : Dev nD) (i : grid0.Coords) (arg2 : Memref sig .tc .vmem S1x1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x1024x4096 .f32) (harg5 : arg5.IsWhole) (arg6 : Memref sig .tc .vmem S1x1024x512 .f32) (harg6 : arg6.IsWhole) (arg7 : Memref sig .tc .vmem S2x4096x512 .bf16) (harg7 : arg7.IsWhole) (hc0 : k0_cond1 i = 1#1) (hc1 : k0_cond2 i = 1#1)
    (x0 : Vec F S1x1024x512 .f32) (x1 : Vec F S512x512 .f32) (x2 : Vec F S1x512 .f32) (x3 : Vec F S1x1024x4096 .f32) (xs : Vec F S2x4096x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (mixOut i hc1 x2 x3 (fillInto i hc0 x0 x1 xs)) ∗ owns (c : Thread nD τ) arg7 fullShare (fillInto i hc0 x0 x1 xs)) -∗ K ⟨⟩))
          ⊢ wp frame (wpE (defs₀ (F := F)) Variants.none c none) E (cc0__gcn_body i arg2 harg2 arg3 harg3 arg4 harg4 arg5 harg5 arg6 harg6 arg7 harg7) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_words
      rw [View.read_writes_eq_canon _ _ _ (fun y => ⟨_, List.mem_singleton_self _, View.mem_set_unit_zero zeros3 Facts₀.inb_S1x1024x512_S1x1024x512_0_0_0 y⟩), View.canon_unit_zero zeros3]
      simp only [View.readAt_eq_ld, read_one_write, harg2.read_unread, harg3.read_unread, harg4.read_unread, harg5.read_unread, harg7.read_unread,
        View.ld_unit_zero (S := S1x1024x512) zeros3, View.ld_unit_zero (S := S1x1024x4096) zeros3, View.ld_unit_zero (S := S512x512) zeros2, View.ld_unit_zero (S := S1x512) zeros2]
      rfl
    iexists _; isplitr; swap; · iexact HS
    ipureintro
    sl_unfold_words
    simp only [View.readAt_eq_ld, read_one_write, harg2.read_unread, harg3.read_unread, harg7.read_unread,
      View.ld_unit_zero (S := S1x1024x512) zeros3, View.ld_unit_zero (S := S512x512) zeros2]
    rfl

set_option maxHeartbeats 1000000 in
/-- Phase 0: only the fill half runs; the output block's buffer is not touched. -/
theorem run_fill (c : Dev nD) (i : grid0.Coords) (arg2 : Memref sig .tc .vmem S1x1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x1024x4096 .f32) (harg5 : arg5.IsWhole) (arg6 : Memref sig .tc .vmem S1x1024x512 .f32) (harg6 : arg6.IsWhole) (arg7 : Memref sig .tc .vmem S2x4096x512 .bf16) (harg7 : arg7.IsWhole) (hc0 : k0_cond1 i = 1#1) (hc1 : ¬k0_cond2 i = 1#1)
    (x0 : Vec F S1x1024x512 .f32) (x1 : Vec F S512x512 .f32) (x2 : Vec F S1x512 .f32) (x3 : Vec F S1x1024x4096 .f32) (xs : Vec F S2x4096x512 .bf16) (xo : Vec F S1x1024x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (fillInto i hc0 x0 x1 xs)) -∗ K ⟨⟩))
          ⊢ wp frame (wpE (defs₀ (F := F)) Variants.none c none) E (cc0__gcn_body i arg2 harg2 arg3 harg3 arg4 harg4 arg5 harg5 arg6 harg6 arg7 harg7) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact HS
    ipureintro
    sl_unfold_words
    simp only [View.readAt_eq_ld, read_one_write, harg2.read_unread, harg3.read_unread, harg7.read_unread,
      View.ld_unit_zero (S := S1x1024x512) zeros3, View.ld_unit_zero (S := S512x512) zeros2]
    rfl

set_option maxHeartbeats 1000000 in
/-- Phase 4: only the mix half runs; the scratch is read and not touched. -/
theorem run_mix (c : Dev nD) (i : grid0.Coords) (arg2 : Memref sig .tc .vmem S1x1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x1024x4096 .f32) (harg5 : arg5.IsWhole) (arg6 : Memref sig .tc .vmem S1x1024x512 .f32) (harg6 : arg6.IsWhole) (arg7 : Memref sig .tc .vmem S2x4096x512 .bf16) (harg7 : arg7.IsWhole) (hc0 : ¬k0_cond1 i = 1#1) (hc1 : k0_cond2 i = 1#1)
    (x0 : Vec F S1x1024x512 .f32) (x1 : Vec F S512x512 .f32) (x2 : Vec F S1x512 .f32) (x3 : Vec F S1x1024x4096 .f32) (xs : Vec F S2x4096x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (mixOut i hc1 x2 x3 xs) ∗ owns (c : Thread nD τ) arg7 fullShare xs) -∗ K ⟨⟩))
          ⊢ wp frame (wpE (defs₀ (F := F)) Variants.none c none) E (cc0__gcn_body i arg2 harg2 arg3 harg3 arg4 harg4 arg5 harg5 arg6 harg6 arg7 harg7) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_words
      rw [View.read_writes_eq_canon _ _ _ (fun y => ⟨_, List.mem_singleton_self _, View.mem_set_unit_zero zeros3 Facts₀.inb_S1x1024x512_S1x1024x512_0_0_0 y⟩), View.canon_unit_zero zeros3]
      simp only [View.readAt_eq_ld, harg4.read_unread, harg5.read_unread, harg7.read_unread,
        View.ld_unit_zero (S := S1x1024x4096) zeros3, View.ld_unit_zero (S := S1x512) zeros2]
      rfl
    iexists _; isplitr; · ipureintro; exact harg7.read_unread _
    iexact HS

end Cert.Kernel.Body

end
-- ==== Proof.KData.lean ====
/-
  What the scratch holds from point to point, and the layer's proof data over it.

  The scratch has two slots of 4096 rows. Point `p` of phases 0..3 fills rows `(p % 4)·1024 ..` of slot `(p / 4) % 2`
  with `prod p`, the product of its 1024 feature rows and the weight. The same rows are filled again eight points
  later, by point `p + 8`, and by no point in between: a point's slot and row block are `p % 8`. So before point `n`
  the scratch holds `prod p` on the rows of every filling point `p` with `p < n ≤ p + 8` (`Holds`), whatever it held
  when the kernel started. A mixing point `t` of phases 1..4 reads the whole slot `(t / 4 + 1) % 2`: the four row
  blocks filled in phase `t / 4 - 1`, all of them within the last eight points, the point's own fill (which goes to
  the other slot) included — the slab `slabAt t`. The block it stores is therefore a function of the launch memory
  alone (`outBlock`), and the region invariant is: the scratch at SOME contents of which `Holds` holds (`PhiAt`).
-/
import proofs.«177299_g15573551415441_cont_week2b_14_32_alg».proof.Proof.KRuns
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point, at their literal types -/

/-- The point's 1024 feature rows. -/
abbrev bX (c : Dev nD) (t : Fin cfg0.N) : Vec F S1x1024x512 .f32 := iblk m c 0 t
/-- The weight (the same block at every point). -/
abbrev bW (c : Dev nD) (t : Fin cfg0.N) : Vec F S512x512 .f32 := iblk m c 1 t
/-- The bias row (the same block at every point). -/
abbrev bB (c : Dev nD) (t : Fin cfg0.N) : Vec F S1x512 .f32 := iblk m c 2 t
/-- The point's 1024 adjacency rows. -/
abbrev bA (c : Dev nD) (t : Fin cfg0.N) : Vec F S1x1024x4096 .f32 := iblk m c 3 t

/-! ## What the scratch holds -/

/-- Point number `n` of the 20. -/
abbrev pt (n : ℕ) (h : n < 20) : Fin cfg0.N := ⟨n, lt_of_lt_of_eq h N_0.symm⟩

/-- The rows of the scratch a filling point stores into. -/
abbrev fillRect (p : Fin cfg0.N) (hp : p.val < 16) : Rect S2x4096x512 :=
  Rect.unit (s := S2x4096x512) (k0_off1 (grid0.coords p)) S1x1024x512.size (Facts₀.k0_off1_inb _ ((fill_iff p).mpr hp))

/-- What a filling point stores there: its feature rows times the weight. -/
def prod (c : Dev nD) (p : Fin cfg0.N) : Vec F S1x1024x512 .bf16 := k0_pay1 (bX m c p) (bW m c p)

/-- Before point `n`: every filling point of the last eight has its product on its rows. -/
def Holds (c : Dev nD) (n : ℕ) (S : Vec F S2x4096x512 .bf16) : Prop :=
  ∀ (p : Fin cfg0.N) (hp : p.val < 16), p.val < n → n ≤ p.val + 8 →
    ∀ x : (fillRect p hp).shape.Idx, S ((fillRect p hp).emb x) = prod m c p x

/-- Before the first point nothing is asked of the scratch. -/
theorem holds_zero (c : Dev nD) (S : Vec F S2x4096x512 .bf16) : Holds m c 0 S :=
  fun _ _ h => absurd h (Nat.not_lt_zero _)

/-- Two filling points less than eight apart store into disjoint rows. -/
theorem fillRect_apart (p t : Fin cfg0.N) (hp : p.val < 16) (ht : t.val < 16) (hlt : p.val < t.val) (hle : t.val ≤ p.val + 7)
    (x : (fillRect p hp).shape.Idx) : (fillRect p hp).emb x ∉ (fillRect t ht).set := by
  intro hmem
  rw [Rect.mem_set_unit] at hmem
  have h0 := hmem 0
  have h1 := hmem 1
  have e0 : ((fillRect p hp).emb x 0 : ℕ) = k0_off1 (grid0.coords p) 0 + 1 * (x 0).val := rfl
  have e1 : ((fillRect p hp).emb x 1 : ℕ) = k0_off1 (grid0.coords p) 1 + 1 * (x 1).val := rfl
  have x0 : (x 0).val < 1 := (x 0).isLt
  have x1 : (x 1).val < 1024 := (x 1).isLt
  rw [e0, fill_off p 0, fill_off t 0] at h0
  rw [e1, fill_off p 1, fill_off t 1] at h1
  have s0 : S1x1024x512.size 0 = 1 := rfl
  have s1 : S1x1024x512.size 1 = 1024 := rfl
  rw [s0] at h0; rw [s1] at h1
  simp only [Matrix.cons_val_zero, Matrix.cons_val_one, Matrix.head_cons, Matrix.cons_val_zero] at h0 h1
  omega

/-- A fill keeps the invariant: the point's own rows now hold its product, and the rows of the seven points before
    it are not touched. -/
theorem holds_fill (c : Dev nD) (t : Fin cfg0.N) (ht : t.val < 16) (S : Vec F S2x4096x512 .bf16) (h : Holds m c t.val S) :
    Holds m c (t.val + 1) (fillInto (grid0.coords t) ((fill_iff t).mpr ht) (bX m c t) (bW m c t) S) := by
  intro p hp hlt hle x
  by_cases e : p = t
  · subst e
    exact Rect.overlay_emb _ _ _ x
  · have hpt : p.val < t.val := lt_of_le_of_ne (Nat.lt_succ_iff.mp hlt) (fun q => e (Fin.ext q))
    unfold fillInto
    rw [Rect.overlay_of_not_mem _ _ _ (fillRect_apart p t hp ht hpt (by omega) x)]
    exact h p hp hpt (by omega) x

/-- A point that does not fill keeps it too (it only gets older). -/
theorem holds_keep (c : Dev nD) (n : ℕ) (hn : 16 ≤ n) (S : Vec F S2x4096x512 .bf16) (h : Holds m c n S) : Holds m c (n + 1) S :=
  fun p hp hlt hle x => h p hp (by omega) (by omega) x

/-! ## What a mixing point reads -/

/-- The slab a mixing point `t` reads: the products of the four filling points of the phase before, row block by
    row block. -/
def slabAt (c : Dev nD) (t : Fin cfg0.N) : Vec F S1x4096x512 .bf16 := fun z =>
  prod m c (pt (4 * (t.val / 4 - 1) + (z 1).val / 1024) (by
      have h1 : (z 1).val < 4096 := (z 1).isLt
      have ht : t.val < 20 := lt_of_lt_of_eq t.isLt N_0
      omega))
    (ValueIdx.ix3 (0 : Fin 1) ⟨(z 1).val % 1024, Nat.mod_lt _ (by decide)⟩ ⟨(z 2).val, (z 2).isLt⟩)

/-- The rows a mixing point loads. -/
abbrev mixRect (t : Fin cfg0.N) (ht : 4 ≤ t.val) : Rect S2x4096x512 :=
  Rect.unit (s := S2x4096x512) (k0_off2 (grid0.coords t)) S1x4096x512.size (Facts₀.k0_off2_inb _ ((mix_iff t).mpr ht))

/-- A mixing point reads the slab, off a scratch of which the invariant holds before the NEXT point (so after the
    point's own fill, if it fills) or before the point itself. -/
theorem ld_slab (c : Dev nD) (t : Fin cfg0.N) (ht : 4 ≤ t.val) (n : ℕ) (hn : n = t.val ∨ n = t.val + 1)
    (S : Vec F S2x4096x512 .bf16) (h : Holds m c n S) :
    View.ld (Val := Elt F) S (mixRect t ht) = slabAt m c t := by
  funext z
  have h1 : (z 1).val < 4096 := (z 1).isLt
  have h0 : (z 0).val < 1 := (z 0).isLt
  have h2 : (z 2).val < 512 := (z 2).isLt
  have htN : t.val < 20 := lt_of_lt_of_eq t.isLt N_0
  have hp : 4 * (t.val / 4 - 1) + (z 1).val / 1024 < 16 := by omega
  show S ((mixRect t ht).idx z) = _
  unfold slabAt
  rw [← h (pt (4 * (t.val / 4 - 1) + (z 1).val / 1024) (by omega)) hp (by rcases hn with rfl | rfl <;> (show 4 * (t.val / 4 - 1) + (z 1).val / 1024 < _; omega)) (by rcases hn with rfl | rfl <;> (show _ ≤ 4 * (t.val / 4 - 1) + (z 1).val / 1024 + 8; omega))]
  refine congrArg S (funext fun a => Fin.ext ?_)
  match a with
  | ⟨0, _⟩ =>
    show k0_off2 (grid0.coords t) 0 + 1 * (z 0).val = k0_off1 (grid0.coords _) 0 + 1 * 0
    rw [mix_off t 0, fill_off _ 0]
    simp only [Matrix.cons_val_zero]
    omega
  | ⟨1, _⟩ =>
    show k0_off2 (grid0.coords t) 1 + 1 * (z 1).val = k0_off1 (grid0.coords _) 1 + 1 * ((z 1).val % 1024)
    rw [mix_off t 1, fill_off _ 1]
    simp only [Matrix.cons_val_one, Matrix.head_cons, Matrix.cons_val_zero]
    omega
  | ⟨2, _⟩ =>
    show k0_off2 (grid0.coords t) 2 + 1 * (z 2).val
      = k0_off1 (grid0.coords (pt (4 * (t.val / 4 - 1) + (z 1).val / 1024) (by omega))) 2 + 1 * (z 2).val
    rw [mix_off t 2, fill_off _ 2]
    simp only [Matrix.cons_val_two, Matrix.tail_cons, Matrix.head_cons, Matrix.cons_val_zero, Matrix.cons_val_one]

/-- The output block a mixing point stores: its adjacency rows times the slab, plus the bias row. -/
def outBlock (c : Dev nD) (t : Fin cfg0.N) : Vec F S1x1024x512 .f32 := k0_pay2 (bA m c t) (slabAt m c t) (bB m c t)

/-! ## The region invariant and the proof data -/

/-- Before point `n`: the scratch at contents of which the invariant holds, and the generator register. -/
def PhiAt (c : Dev nD) (n : ℕ) : sProp 𝕄 :=
  iprop(iprop(∃ S, ⌜Holds m c n S⌝ ∗ owns (c : Thread nD τ) mS fullShare S) ∗ (∃ r, prngReg c r))

/-- The proof data of the one pipeline on core `c`: the arrays as the region finds them; after the body each input's
    buffer at its block, the output's at `outBlock`; the invariant `PhiAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
  Φ t := PhiAt m c t.val
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_adj (c : Dev nD) (t : Fin cfg0.N) : (dats m 0 c).after 3 t = iblk m c 3 t := by dsimp only [dats]
theorem after_out (c : Dev nD) (t : Fin cfg0.N) : (dats m 0 c).after 4 t = outBlock m c t := by dsimp only [dats]

/-- Each input's buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_bias (c : Dev nD) (t : Fin cfg0.N) (d) : (dats m 0 c).before 2 t d = iblk m c 2 t :=
  before0_2_of m (dats m 0 c) (A_eq m c 2) (after_bias m c) t d
theorem before_adj (c : Dev nD) (t : Fin cfg0.N) (d) : (dats m 0 c).before 3 t d = iblk m c 3 t :=
  before0_3_of m (dats m 0 c) (A_eq m c 3) (after_adj m c) t d

end Cert.Kernel.Body

end
-- ==== Proof.KOblig.lean ====
/-
  The body obligation of the layer's kernel at every grid point, and from it the run and the frame.

  At a point of phase 0 the fill half alone runs: the scratch comes back with the point's product laid over it, the
  invariant one point older; the output window is idle and its buffer goes back as it came. At a point of phases
  1..3 both halves run: the mix half reads the slab off the scratch as the point's own fill has just left it, and the
  stored block is the point's `outBlock`. At a point of phase 4 the mix half alone runs, off a scratch nothing has
  touched since phase 3. Before the first point the invariant asks nothing of the scratch, and after the last it is
  forgotten: the run is the library's frame run with an invariant carried from point to point.
-/
import proofs.«177299_g15573551415441_cont_week2b_14_32_alg».proof.Proof.KData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mW t) fullShare ((dats m 0 c).before 1 t d))
    ∗ (∃ d, owns (c : Thread nD τ) (mB t) fullShare ((dats m 0 c).before 2 t d))
    ∗ (∃ d, owns (c : Thread nD τ) (mA t) fullShare ((dats m 0 c).before 3 t d))
    ∗ (∃ d, owns (c : Thread nD τ) (mO t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point, by the phase the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_bias, before_adj]
  rw [show (dats m 0 c).owesAt () t.succ = (dats m 0 c).owesAt () t.castSucc from rfl]
  rw [show (dats m 0 c).Φ t.succ = PhiAt m c (t.val + 1) from rfl, show (dats m 0 c).Φ t.castSucc = PhiAt m c t.val from rfl]
  unfold PhiAt
  rw [show (dats m 0 c).leavesExact 0 t = owns (c : Thread nD τ) (mX t) fullShare ((dats m 0 c).after 0 t) from by
    unfold Dat.leavesExact; rw [live_x t], after_x]
  rw [show (dats m 0 c).leavesExact 1 t = owns (c : Thread nD τ) (mW t) fullShare ((dats m 0 c).after 1 t) from by
    unfold Dat.leavesExact; rw [live_w t], after_w]
  rw [show (dats m 0 c).leavesExact 2 t = owns (c : Thread nD τ) (mB t) fullShare ((dats m 0 c).after 2 t) from by
    unfold Dat.leavesExact; rw [live_bias t], after_bias]
  rw [show (dats m 0 c).leavesExact 3 t = owns (c : Thread nD τ) (mA t) fullShare ((dats m 0 c).after 3 t) from by
    unfold Dat.leavesExact; rw [live_adj t], after_adj]
  have hN : t.val < 20 := lt_of_lt_of_eq t.isLt N_0
  by_cases h1 : 4 ≤ t.val
  · rw [show (dats m 0 c).leavesExact 4 t = owns (c : Thread nD τ) (mO t) fullShare ((dats m 0 c).after 4 t) from by
      unfold Dat.leavesExact; rw [live_out t h1], after_out]
    by_cases h0 : t.val < 16
    · iintro ⟨⟨⟨%S, %hS, HS⟩, Hg⟩, Ho, ⟨%d0, H0⟩, ⟨%d1, H1⟩, ⟨%d2, H2⟩, ⟨%d3, H3⟩, ⟨%d4, H4⟩⟩
      have e : mixOut (grid0.coords t) ((mix_iff t).mpr h1) (bB m c t) (bA m c t)
            (fillInto (grid0.coords t) ((fill_iff t).mpr h0) (bX m c t) (bW m c t) S) = outBlock m c t := by
        unfold mixOut outBlock
        exact congrArg (fun s => k0_pay2 (bA m c t) s (bB m c t)) (ld_slab m c t h1 (t.val + 1) (Or.inr rfl) _ (holds_fill m c t h0 S hS))
      iapply (run_both c (grid0.coords t) _ _ _ _ _ _ _ _ _ _ _ _ ((fill_iff t).mpr h0) ((mix_iff t).mpr h1) (bX m c t) (bW m c t) (bB m c t) (bA m c t) S Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iexists _; isplitr; swap; · iexact HS
          ipureintro; exact holds_fill m c t h0 S hS
        iexact Hg
      isplitl [Ho]; · iexact Ho
      isplitl [H0]; · iexact H0
      isplitl [H1]; · iexact H1
      isplitl [H2]; · iexact H2
      isplitl [H3]; · iexact H3
      rw [← e]; iexact H4
    · iintro ⟨⟨⟨%S, %hS, HS⟩, Hg⟩, Ho, ⟨%d0, H0⟩, ⟨%d1, H1⟩, ⟨%d2, H2⟩, ⟨%d3, H3⟩, ⟨%d4, H4⟩⟩
      have e : mixOut (grid0.coords t) ((mix_iff t).mpr h1) (bB m c t) (bA m c t) S = outBlock m c t := by
        unfold mixOut outBlock
        exact congrArg (fun s => k0_pay2 (bA m c t) s (bB m c t)) (ld_slab m c t h1 t.val (Or.inl rfl) S hS)
      iapply (run_mix c (grid0.coords t) _ _ _ _ _ _ _ _ _ _ _ _ (fun h => h0 ((fill_iff t).mp h)) ((mix_iff t).mpr h1) (bX m c t) (bW m c t) (bB m c t) (bA m c t) S Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iexists _; isplitr; swap; · iexact HS
          ipureintro; exact holds_keep m c t.val (by omega) S hS
        iexact Hg
      isplitl [Ho]; · iexact Ho
      isplitl [H0]; · iexact H0
      isplitl [H1]; · iexact H1
      isplitl [H2]; · iexact H2
      isplitl [H3]; · iexact H3
      rw [← e]; iexact H4
  · have h4 : t.val < 4 := by omega
    rw [Dat.leavesExact_idle (dats m 0 c) 4 t (idle_out t h4) (noflush_out t h4)]
    iintro ⟨⟨⟨%S, %hS, HS⟩, Hg⟩, Ho, ⟨%d0, H0⟩, ⟨%d1, H1⟩, ⟨%d2, H2⟩, ⟨%d3, H3⟩, ⟨%d4, H4⟩⟩
    iapply (run_fill c (grid0.coords t) _ _ _ _ _ _ _ _ _ _ _ _ ((fill_iff t).mpr (by omega)) (fun h => h1 ((mix_iff t).mp h)) (bX m c t) (bW m c t) (bB m c t) (bA m c t) S _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr; swap; · iexact HS
        ipureintro; exact holds_fill m c t (by omega) S hS
      iexact Hg
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch holds anything, and nothing is asked of it. -/
theorem enter (c : Dev nD) : Pipeline.ΦA spec0 c ⊢ (dats m 0 c).Φ 0 := by
  rw [show (dats m 0 c).Φ 0 = PhiAt m c 0 from rfl, scratch_any]
  unfold PhiAt
  iintro ⟨⟨%d, HS⟩, Hg⟩
  isplitl [HS]
  · iexists d; isplitr; swap; · iexact HS
    ipureintro; exact holds_zero m c d
  iexact Hg

/-- After the last point what the scratch holds is forgotten. -/
theorem leave (c : Dev nD) : (dats m 0 c).Φ (Fin.last cfg0.N) ⊢ Pipeline.ΦA spec0 c := by
  rw [show (dats m 0 c).Φ (Fin.last cfg0.N) = PhiAt m c (Fin.last cfg0.N).val from rfl, scratch_any]
  unfold PhiAt
  iintro ⟨⟨%S, -, HS⟩, Hg⟩
  isplitl [HS]
  · iexists S; iexact HS
  iexact Hg

set_option backward.isDefEq.respectTransparency.types false in
/-- Every weakly fair execution of the program terminates without a fault, every array of the pipeline ending at
    what the write-backs of the proof data's blocks leave, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The program runs and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KiSched.lean ====
/-
  The schedule of the layer's one kernel on its grid of 5 × 4 = 20 points, point `t` being batch phase `t / 4`, row
  block `t % 4`. The body has two guarded halves. The FILL half runs in phases 0..3 (points 0..15): it multiplies the
  1024 feature rows of the point's block by the weight and stores the product into the scratch, in slot `(t / 4) % 2`
  at rows `(t % 4) · 1024 ..`. The MIX half runs in phases 1..4 (points 4..19): it multiplies the point's 1024
  adjacency rows by the whole slab of the OTHER slot, `(t / 4 + 1) % 2`, adds the bias row and stores the output
  block. Here: the two guards and the two scratch offsets in closed form over the grid; where the output window is
  idle (phase 0, where nothing is stored into it and nothing is written back); the names of the staging memrefs a
  point is called with; and one fact about a single store through a view, read back as an overlay.
-/
import proofs.«177299_g15573551415441_cont_week2b_14_32_alg».proof.Proof.Gen.KernelIdeal.Frame
import proofs.«177299_g15573551415441_cont_week2b_14_32_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One store through a view -/

/-- What a buffer reads through a view after ONE store of `w` through the rectangle `r`: what it read before, with
    `w` laid over `r`. -/
theorem read_one_write {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y [⟨r, w⟩] (fun p hp => by
      rw [List.mem_singleton] at hp; subst hp; exact hy), Rect.overlay_of_not_mem _ _ _ hy]

/-! ## The guards and the offsets over the grid -/

/-- The fill half runs at the points of phases 0..3. -/
theorem fill_iff : ∀ t : Fin cfg0.N, k0_cond1 (grid0.coords t) = 1#1 ↔ t.val < 16 :=
  (by decide +kernel : ∀ t : Fin grid0.N, k0_cond1 (grid0.coords t) = 1#1 ↔ t.val < 16)

/-- The mix half runs at the points of phases 1..4. -/
theorem mix_iff : ∀ t : Fin cfg0.N, k0_cond2 (grid0.coords t) = 1#1 ↔ 4 ≤ t.val :=
  (by decide +kernel : ∀ t : Fin grid0.N, k0_cond2 (grid0.coords t) = 1#1 ↔ 4 ≤ t.val)

/-- Where the fill half stores: slot `(t / 4) % 2`, rows from `(t % 4) · 1024`, all columns. -/
theorem fill_off : ∀ (t : Fin cfg0.N) (a : Fin 3), k0_off1 (grid0.coords t) a = (![(t.val / 4) % 2, (t.val % 4) * 1024, 0] : Fin 3 → ℕ) a :=
  (by decide +kernel : ∀ (t : Fin grid0.N) (a : Fin 3), k0_off1 (grid0.coords t) a = (![(t.val / 4) % 2, (t.val % 4) * 1024, 0] : Fin 3 → ℕ) a)

/-- Where the mix half loads: slot `(t / 4 + 1) % 2`, from row 0, all columns. -/
theorem mix_off : ∀ (t : Fin cfg0.N) (a : Fin 3), k0_off2 (grid0.coords t) a = (![(t.val / 4 + 1) % 2, 0, 0] : Fin 3 → ℕ) a :=
  (by decide +kernel : ∀ (t : Fin grid0.N) (a : Fin 3), k0_off2 (grid0.coords t) a = (![(t.val / 4 + 1) % 2, 0, 0] : Fin 3 → ℕ) a)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem live_bias : ∀ t : Fin cfg0.N, cfg0.idle 2 (grid0.coords t) = false := by decide +kernel
theorem live_adj : ∀ t : Fin cfg0.N, cfg0.idle 3 (grid0.coords t) = false := by decide +kernel
/-- In phase 0 nothing is stored into the output window: it is idle there, -/
theorem idle_out : ∀ t : Fin cfg0.N, t.val < 4 → cfg0.idle 4 (grid0.coords t) = true := by decide +kernel
/-- and its block is not written back there; -/
theorem noflush_out : ∀ t : Fin cfg0.N, t.val < 4 → (cfg0.win 4).flush t = false := by decide +kernel
/-- from phase 1 on it is live. -/
theorem live_out : ∀ t : Fin cfg0.N, 4 ≤ t.val → cfg0.idle 4 (grid0.coords t) = false := by decide +kernel

/-! ## The memrefs a point is called with -/

abbrev mX (t : Fin cfg0.N) : Memref sig .tc .vmem S1x1024x512 .f32 := win0_0.stage (cfg0.slots t 0)
abbrev hX (t : Fin cfg0.N) : (mX t).IsWhole := Facts₀.hstage0_0 ((cfg0.slots t 0).cast Facts₀.nbuf0_0)
abbrev mW (t : Fin cfg0.N) : Memref sig .tc .vmem S512x512 .f32 := win0_1.stage (cfg0.slots t 1)
abbrev hW (t : Fin cfg0.N) : (mW t).IsWhole := Facts₀.hstage0_1 ((cfg0.slots t 1).cast Facts₀.nbuf0_1)
abbrev mB (t : Fin cfg0.N) : Memref sig .tc .vmem S1x512 .f32 := win0_2.stage (cfg0.slots t 2)
abbrev hB (t : Fin cfg0.N) : (mB t).IsWhole := Facts₀.hstage0_2 ((cfg0.slots t 2).cast Facts₀.nbuf0_2)
abbrev mA (t : Fin cfg0.N) : Memref sig .tc .vmem S1x1024x4096 .f32 := win0_3.stage (cfg0.slots t 3)
abbrev hA (t : Fin cfg0.N) : (mA t).IsWhole := Facts₀.hstage0_3 ((cfg0.slots t 3).cast Facts₀.nbuf0_3)
abbrev mO (t : Fin cfg0.N) : Memref sig .tc .vmem S1x1024x512 .f32 := win0_4.stage (cfg0.slots t 4)
abbrev hO (t : Fin cfg0.N) : (mO t).IsWhole := Facts₀.hstage0_4 ((cfg0.slots t 4).cast Facts₀.nbuf0_4)
/-- The scratch: two slots of 4096 × 512, a whole buffer of the kernel's own. -/
abbrev mS : Memref sig .tc .vmem S2x4096x512 .bf16 := Memref.whole cc0_scratch0
abbrev hS : (mS).IsWhole := Memref.isWhole_whole _

/-- The region invariant of a kernel that names nothing between points — the scoped buffers that are no staging
    buffer at some contents and the generator register at some state — is, for this kernel, the scratch owned at some
    contents beside the register. -/
theorem scratch_any (c : Dev nD) :
    (Pipeline.ΦA spec0 c : sProp 𝕄)
      = iprop(iprop((∃ d, owns (c : Thread nD τ) mS fullShare d)) ∗ (∃ r, prngReg c r)) := by
  unfold Pipeline.ΦA; rw [scopedRest0_eq]; simp only [mS, owns_whole]; try rfl

end Cert.KernelIdeal.Body

end
-- ==== Proof.KiRuns.lean ====
/-
  The body of the layer's kernel run at one grid point, in each of the three ways its two guards fall over the grid:
  phase 0 (fill only), phases 1..3 (fill, then mix), phase 4 (mix only). Each statement hands the body its four input
  blocks, the output block's buffer and the scratch at NAMED contents, and says what it hands back: the inputs as
  they were; the scratch with the point's 1024 product rows laid over what it held (`fillInto`), or untouched where
  the fill half does not run; the output buffer at the mixed block (`mixOut`), or untouched where the mix half does
  not run. In phases 1..3 the mix half reads the scratch AFTER the point's own fill; the two halves use opposite slots.
-/
import proofs.«177299_g15573551415441_cont_week2b_14_32_alg».proof.Proof.KiSched
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch after the fill half at grid point `i`: what it held (`xs`), with the product of the point's feature
    block `x0` and the weight `x1` laid over the point's 1024 rows of the point's slot. -/
def fillInto (i : grid0.Coords) (hc0 : k0_cond1 i = 1#1) (x0 : Vec F S1x1024x512 .f32) (x1 : Vec F S512x512 .f32)
    (xs : Vec F S2x4096x512 .bf16) : Vec F S2x4096x512 .bf16 :=
  (Rect.unit (s := S2x4096x512) (k0_off1 i) S1x1024x512.size (Facts₀.k0_off1_inb i hc0)).overlay xs (k0_pay1 x0 x1)

/-- The output block the mix half stores at grid point `i`: the point's adjacency rows `x3` times the slab the
    scratch `xs` holds in the slot the point reads, plus the bias row `x2`. -/
def mixOut (i : grid0.Coords) (hc1 : k0_cond2 i = 1#1) (x2 : Vec F S1x512 .f32) (x3 : Vec F S1x1024x4096 .f32)
    (xs : Vec F S2x4096x512 .bf16) : Vec F S1x1024x512 .f32 :=
  k0_pay2 x3 (View.ld (Val := Elt F) xs (Rect.unit (s := S2x4096x512) (k0_off2 i) S1x4096x512.size (Facts₀.k0_off2_inb i hc1))) x2

theorem zeros3 : (![0, 0, 0] : Fin 3 → ℕ) = fun _ => 0 := funext fun a => by
  match a with
  | ⟨0, _⟩ => rfl
  | ⟨1, _⟩ => rfl
  | ⟨2, _⟩ => rfl
theorem zeros2 : (![0, 0] : Fin 2 → ℕ) = fun _ => 0 := funext fun a => by
  match a with
  | ⟨0, _⟩ => rfl
  | ⟨1, _⟩ => rfl

set_option maxHeartbeats 1000000 in
/-- Phases 1..3: both halves run. -/
theorem run_both (c : Dev nD) (i : grid0.Coords) (arg2 : Memref sig .tc .vmem S1x1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x1024x4096 .f32) (harg5 : arg5.IsWhole) (arg6 : Memref sig .tc .vmem S1x1024x512 .f32) (harg6 : arg6.IsWhole) (arg7 : Memref sig .tc .vmem S2x4096x512 .bf16) (harg7 : arg7.IsWhole) (hc0 : k0_cond1 i = 1#1) (hc1 : k0_cond2 i = 1#1)
    (x0 : Vec F S1x1024x512 .f32) (x1 : Vec F S512x512 .f32) (x2 : Vec F S1x512 .f32) (x3 : Vec F S1x1024x4096 .f32) (xs : Vec F S2x4096x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (mixOut i hc1 x2 x3 (fillInto i hc0 x0 x1 xs)) ∗ owns (c : Thread nD τ) arg7 fullShare (fillInto i hc0 x0 x1 xs)) -∗ K ⟨⟩))
          ⊢ wp frame (wpE (defs₀ (F := F)) Variants.none c none) E (cc0__gcn_body i arg2 harg2 arg3 harg3 arg4 harg4 arg5 harg5 arg6 harg6 arg7 harg7) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_words
      rw [View.read_writes_eq_canon _ _ _ (fun y => ⟨_, List.mem_singleton_self _, View.mem_set_unit_zero zeros3 Facts₀.inb_S1x1024x512_S1x1024x512_0_0_0 y⟩), View.canon_unit_zero zeros3]
      simp only [View.readAt_eq_ld, read_one_write, harg2.read_unread, harg3.read_unread, harg4.read_unread, harg5.read_unread, harg7.read_unread,
        View.ld_unit_zero (S := S1x1024x512) zeros3, View.ld_unit_zero (S := S1x1024x4096) zeros3, View.ld_unit_zero (S := S512x512) zeros2, View.ld_unit_zero (S := S1x512) zeros2]
      rfl
    iexists _; isplitr; swap; · iexact HS
    ipureintro
    sl_unfold_words
    simp only [View.readAt_eq_ld, read_one_write, harg2.read_unread, harg3.read_unread, harg7.read_unread,
      View.ld_unit_zero (S := S1x1024x512) zeros3, View.ld_unit_zero (S := S512x512) zeros2]
    rfl

set_option maxHeartbeats 1000000 in
/-- Phase 0: only the fill half runs; the output block's buffer is not touched. -/
theorem run_fill (c : Dev nD) (i : grid0.Coords) (arg2 : Memref sig .tc .vmem S1x1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x1024x4096 .f32) (harg5 : arg5.IsWhole) (arg6 : Memref sig .tc .vmem S1x1024x512 .f32) (harg6 : arg6.IsWhole) (arg7 : Memref sig .tc .vmem S2x4096x512 .bf16) (harg7 : arg7.IsWhole) (hc0 : k0_cond1 i = 1#1) (hc1 : ¬k0_cond2 i = 1#1)
    (x0 : Vec F S1x1024x512 .f32) (x1 : Vec F S512x512 .f32) (x2 : Vec F S1x512 .f32) (x3 : Vec F S1x1024x4096 .f32) (xs : Vec F S2x4096x512 .bf16) (xo : Vec F S1x1024x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (fillInto i hc0 x0 x1 xs)) -∗ K ⟨⟩))
          ⊢ wp frame (wpE (defs₀ (F := F)) Variants.none c none) E (cc0__gcn_body i arg2 harg2 arg3 harg3 arg4 harg4 arg5 harg5 arg6 harg6 arg7 harg7) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact HS
    ipureintro
    sl_unfold_words
    simp only [View.readAt_eq_ld, read_one_write, harg2.read_unread, harg3.read_unread, harg7.read_unread,
      View.ld_unit_zero (S := S1x1024x512) zeros3, View.ld_unit_zero (S := S512x512) zeros2]
    rfl

set_option maxHeartbeats 1000000 in
/-- Phase 4: only the mix half runs; the scratch is read and not touched. -/
theorem run_mix (c : Dev nD) (i : grid0.Coords) (arg2 : Memref sig .tc .vmem S1x1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x1024x4096 .f32) (harg5 : arg5.IsWhole) (arg6 : Memref sig .tc .vmem S1x1024x512 .f32) (harg6 : arg6.IsWhole) (arg7 : Memref sig .tc .vmem S2x4096x512 .bf16) (harg7 : arg7.IsWhole) (hc0 : ¬k0_cond1 i = 1#1) (hc1 : k0_cond2 i = 1#1)
    (x0 : Vec F S1x1024x512 .f32) (x1 : Vec F S512x512 .f32) (x2 : Vec F S1x512 .f32) (x3 : Vec F S1x1024x4096 .f32) (xs : Vec F S2x4096x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (mixOut i hc1 x2 x3 xs) ∗ owns (c : Thread nD τ) arg7 fullShare xs) -∗ K ⟨⟩))
          ⊢ wp frame (wpE (defs₀ (F := F)) Variants.none c none) E (cc0__gcn_body i arg2 harg2 arg3 harg3 arg4 harg4 arg5 harg5 arg6 harg6 arg7 harg7) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_words
      rw [View.read_writes_eq_canon _ _ _ (fun y => ⟨_, List.mem_singleton_self _, View.mem_set_unit_zero zeros3 Facts₀.inb_S1x1024x512_S1x1024x512_0_0_0 y⟩), View.canon_unit_zero zeros3]
      simp only [View.readAt_eq_ld, harg4.read_unread, harg5.read_unread, harg7.read_unread,
        View.ld_unit_zero (S := S1x1024x4096) zeros3, View.ld_unit_zero (S := S1x512) zeros2]
      rfl
    iexists _; isplitr; · ipureintro; exact harg7.read_unread _
    iexact HS

end Cert.KernelIdeal.Body

end
-- ==== Proof.KiData.lean ====
/-
  What the scratch holds from point to point, and the layer's proof data over it.

  The scratch has two slots of 4096 rows. Point `p` of phases 0..3 fills rows `(p % 4)·1024 ..` of slot `(p / 4) % 2`
  with `prod p`, the product of its 1024 feature rows and the weight. The same rows are filled again eight points
  later, by point `p + 8`, and by no point in between: a point's slot and row block are `p % 8`. So before point `n`
  the scratch holds `prod p` on the rows of every filling point `p` with `p < n ≤ p + 8` (`Holds`), whatever it held
  when the kernel started. A mixing point `t` of phases 1..4 reads the whole slot `(t / 4 + 1) % 2`: the four row
  blocks filled in phase `t / 4 - 1`, all of them within the last eight points, the point's own fill (which goes to
  the other slot) included — the slab `slabAt t`. The block it stores is therefore a function of the launch memory
  alone (`outBlock`), and the region invariant is: the scratch at SOME contents of which `Holds` holds (`PhiAt`).
-/
import proofs.«177299_g15573551415441_cont_week2b_14_32_alg».proof.Proof.KiRuns
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point, at their literal types -/

/-- The point's 1024 feature rows. -/
abbrev bX (c : Dev nD) (t : Fin cfg0.N) : Vec F S1x1024x512 .f32 := iblk m c 0 t
/-- The weight (the same block at every point). -/
abbrev bW (c : Dev nD) (t : Fin cfg0.N) : Vec F S512x512 .f32 := iblk m c 1 t
/-- The bias row (the same block at every point). -/
abbrev bB (c : Dev nD) (t : Fin cfg0.N) : Vec F S1x512 .f32 := iblk m c 2 t
/-- The point's 1024 adjacency rows. -/
abbrev bA (c : Dev nD) (t : Fin cfg0.N) : Vec F S1x1024x4096 .f32 := iblk m c 3 t

/-! ## What the scratch holds -/

/-- Point number `n` of the 20. -/
abbrev pt (n : ℕ) (h : n < 20) : Fin cfg0.N := ⟨n, lt_of_lt_of_eq h N_0.symm⟩

/-- The rows of the scratch a filling point stores into. -/
abbrev fillRect (p : Fin cfg0.N) (hp : p.val < 16) : Rect S2x4096x512 :=
  Rect.unit (s := S2x4096x512) (k0_off1 (grid0.coords p)) S1x1024x512.size (Facts₀.k0_off1_inb _ ((fill_iff p).mpr hp))

/-- What a filling point stores there: its feature rows times the weight. -/
def prod (c : Dev nD) (p : Fin cfg0.N) : Vec F S1x1024x512 .bf16 := k0_pay1 (bX m c p) (bW m c p)

/-- Before point `n`: every filling point of the last eight has its product on its rows. -/
def Holds (c : Dev nD) (n : ℕ) (S : Vec F S2x4096x512 .bf16) : Prop :=
  ∀ (p : Fin cfg0.N) (hp : p.val < 16), p.val < n → n ≤ p.val + 8 →
    ∀ x : (fillRect p hp).shape.Idx, S ((fillRect p hp).emb x) = prod m c p x

/-- Before the first point nothing is asked of the scratch. -/
theorem holds_zero (c : Dev nD) (S : Vec F S2x4096x512 .bf16) : Holds m c 0 S :=
  fun _ _ h => absurd h (Nat.not_lt_zero _)

/-- Two filling points less than eight apart store into disjoint rows. -/
theorem fillRect_apart (p t : Fin cfg0.N) (hp : p.val < 16) (ht : t.val < 16) (hlt : p.val < t.val) (hle : t.val ≤ p.val + 7)
    (x : (fillRect p hp).shape.Idx) : (fillRect p hp).emb x ∉ (fillRect t ht).set := by
  intro hmem
  rw [Rect.mem_set_unit] at hmem
  have h0 := hmem 0
  have h1 := hmem 1
  have e0 : ((fillRect p hp).emb x 0 : ℕ) = k0_off1 (grid0.coords p) 0 + 1 * (x 0).val := rfl
  have e1 : ((fillRect p hp).emb x 1 : ℕ) = k0_off1 (grid0.coords p) 1 + 1 * (x 1).val := rfl
  have x0 : (x 0).val < 1 := (x 0).isLt
  have x1 : (x 1).val < 1024 := (x 1).isLt
  rw [e0, fill_off p 0, fill_off t 0] at h0
  rw [e1, fill_off p 1, fill_off t 1] at h1
  have s0 : S1x1024x512.size 0 = 1 := rfl
  have s1 : S1x1024x512.size 1 = 1024 := rfl
  rw [s0] at h0; rw [s1] at h1
  simp only [Matrix.cons_val_zero, Matrix.cons_val_one, Matrix.head_cons, Matrix.cons_val_zero] at h0 h1
  omega

/-- A fill keeps the invariant: the point's own rows now hold its product, and the rows of the seven points before
    it are not touched. -/
theorem holds_fill (c : Dev nD) (t : Fin cfg0.N) (ht : t.val < 16) (S : Vec F S2x4096x512 .bf16) (h : Holds m c t.val S) :
    Holds m c (t.val + 1) (fillInto (grid0.coords t) ((fill_iff t).mpr ht) (bX m c t) (bW m c t) S) := by
  intro p hp hlt hle x
  by_cases e : p = t
  · subst e
    exact Rect.overlay_emb _ _ _ x
  · have hpt : p.val < t.val := lt_of_le_of_ne (Nat.lt_succ_iff.mp hlt) (fun q => e (Fin.ext q))
    unfold fillInto
    rw [Rect.overlay_of_not_mem _ _ _ (fillRect_apart p t hp ht hpt (by omega) x)]
    exact h p hp hpt (by omega) x

/-- A point that does not fill keeps it too (it only gets older). -/
theorem holds_keep (c : Dev nD) (n : ℕ) (hn : 16 ≤ n) (S : Vec F S2x4096x512 .bf16) (h : Holds m c n S) : Holds m c (n + 1) S :=
  fun p hp hlt hle x => h p hp (by omega) (by omega) x

/-! ## What a mixing point reads -/

/-- The slab a mixing point `t` reads: the products of the four filling points of the phase before, row block by
    row block. -/
def slabAt (c : Dev nD) (t : Fin cfg0.N) : Vec F S1x4096x512 .bf16 := fun z =>
  prod m c (pt (4 * (t.val / 4 - 1) + (z 1).val / 1024) (by
      have h1 : (z 1).val < 4096 := (z 1).isLt
      have ht : t.val < 20 := lt_of_lt_of_eq t.isLt N_0
      omega))
    (ValueIdx.ix3 (0 : Fin 1) ⟨(z 1).val % 1024, Nat.mod_lt _ (by decide)⟩ ⟨(z 2).val, (z 2).isLt⟩)

/-- The rows a mixing point loads. -/
abbrev mixRect (t : Fin cfg0.N) (ht : 4 ≤ t.val) : Rect S2x4096x512 :=
  Rect.unit (s := S2x4096x512) (k0_off2 (grid0.coords t)) S1x4096x512.size (Facts₀.k0_off2_inb _ ((mix_iff t).mpr ht))

/-- A mixing point reads the slab, off a scratch of which the invariant holds before the NEXT point (so after the
    point's own fill, if it fills) or before the point itself. -/
theorem ld_slab (c : Dev nD) (t : Fin cfg0.N) (ht : 4 ≤ t.val) (n : ℕ) (hn : n = t.val ∨ n = t.val + 1)
    (S : Vec F S2x4096x512 .bf16) (h : Holds m c n S) :
    View.ld (Val := Elt F) S (mixRect t ht) = slabAt m c t := by
  funext z
  have h1 : (z 1).val < 4096 := (z 1).isLt
  have h0 : (z 0).val < 1 := (z 0).isLt
  have h2 : (z 2).val < 512 := (z 2).isLt
  have htN : t.val < 20 := lt_of_lt_of_eq t.isLt N_0
  have hp : 4 * (t.val / 4 - 1) + (z 1).val / 1024 < 16 := by omega
  show S ((mixRect t ht).idx z) = _
  unfold slabAt
  rw [← h (pt (4 * (t.val / 4 - 1) + (z 1).val / 1024) (by omega)) hp (by rcases hn with rfl | rfl <;> (show 4 * (t.val / 4 - 1) + (z 1).val / 1024 < _; omega)) (by rcases hn with rfl | rfl <;> (show _ ≤ 4 * (t.val / 4 - 1) + (z 1).val / 1024 + 8; omega))]
  refine congrArg S (funext fun a => Fin.ext ?_)
  match a with
  | ⟨0, _⟩ =>
    show k0_off2 (grid0.coords t) 0 + 1 * (z 0).val = k0_off1 (grid0.coords _) 0 + 1 * 0
    rw [mix_off t 0, fill_off _ 0]
    simp only [Matrix.cons_val_zero]
    omega
  | ⟨1, _⟩ =>
    show k0_off2 (grid0.coords t) 1 + 1 * (z 1).val = k0_off1 (grid0.coords _) 1 + 1 * ((z 1).val % 1024)
    rw [mix_off t 1, fill_off _ 1]
    simp only [Matrix.cons_val_one, Matrix.head_cons, Matrix.cons_val_zero]
    omega
  | ⟨2, _⟩ =>
    show k0_off2 (grid0.coords t) 2 + 1 * (z 2).val
      = k0_off1 (grid0.coords (pt (4 * (t.val / 4 - 1) + (z 1).val / 1024) (by omega))) 2 + 1 * (z 2).val
    rw [mix_off t 2, fill_off _ 2]
    simp only [Matrix.cons_val_two, Matrix.tail_cons, Matrix.head_cons, Matrix.cons_val_zero, Matrix.cons_val_one]

/-- The output block a mixing point stores: its adjacency rows times the slab, plus the bias row. -/
def outBlock (c : Dev nD) (t : Fin cfg0.N) : Vec F S1x1024x512 .f32 := k0_pay2 (bA m c t) (slabAt m c t) (bB m c t)

/-! ## The region invariant and the proof data -/

/-- Before point `n`: the scratch at contents of which the invariant holds, and the generator register. -/
def PhiAt (c : Dev nD) (n : ℕ) : sProp 𝕄 :=
  iprop(iprop(∃ S, ⌜Holds m c n S⌝ ∗ owns (c : Thread nD τ) mS fullShare S) ∗ (∃ r, prngReg c r))

/-- The proof data of the one pipeline on core `c`: the arrays as the region finds them; after the body each input's
    buffer at its block, the output's at `outBlock`; the invariant `PhiAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
  Φ t := PhiAt m c t.val
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_adj (c : Dev nD) (t : Fin cfg0.N) : (dats m 0 c).after 3 t = iblk m c 3 t := by dsimp only [dats]
theorem after_out (c : Dev nD) (t : Fin cfg0.N) : (dats m 0 c).after 4 t = outBlock m c t := by dsimp only [dats]

/-- Each input's buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_bias (c : Dev nD) (t : Fin cfg0.N) (d) : (dats m 0 c).before 2 t d = iblk m c 2 t :=
  before0_2_of m (dats m 0 c) (A_eq m c 2) (after_bias m c) t d
theorem before_adj (c : Dev nD) (t : Fin cfg0.N) (d) : (dats m 0 c).before 3 t d = iblk m c 3 t :=
  before0_3_of m (dats m 0 c) (A_eq m c 3) (after_adj m c) t d

end Cert.KernelIdeal.Body

end
-- ==== Proof.KiOblig.lean ====
/-
  The body obligation of the layer's kernel at every grid point, and from it the run and the frame.

  At a point of phase 0 the fill half alone runs: the scratch comes back with the point's product laid over it, the
  invariant one point older; the output window is idle and its buffer goes back as it came. At a point of phases
  1..3 both halves run: the mix half reads the slab off the scratch as the point's own fill has just left it, and the
  stored block is the point's `outBlock`. At a point of phase 4 the mix half alone runs, off a scratch nothing has
  touched since phase 3. Before the first point the invariant asks nothing of the scratch, and after the last it is
  forgotten: the run is the library's frame run with an invariant carried from point to point.
-/
import proofs.«177299_g15573551415441_cont_week2b_14_32_alg».proof.Proof.KiData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mW t) fullShare ((dats m 0 c).before 1 t d))
    ∗ (∃ d, owns (c : Thread nD τ) (mB t) fullShare ((dats m 0 c).before 2 t d))
    ∗ (∃ d, owns (c : Thread nD τ) (mA t) fullShare ((dats m 0 c).before 3 t d))
    ∗ (∃ d, owns (c : Thread nD τ) (mO t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point, by the phase the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_bias, before_adj]
  rw [show (dats m 0 c).owesAt () t.succ = (dats m 0 c).owesAt () t.castSucc from rfl]
  rw [show (dats m 0 c).Φ t.succ = PhiAt m c (t.val + 1) from rfl, show (dats m 0 c).Φ t.castSucc = PhiAt m c t.val from rfl]
  unfold PhiAt
  rw [show (dats m 0 c).leavesExact 0 t = owns (c : Thread nD τ) (mX t) fullShare ((dats m 0 c).after 0 t) from by
    unfold Dat.leavesExact; rw [live_x t], after_x]
  rw [show (dats m 0 c).leavesExact 1 t = owns (c : Thread nD τ) (mW t) fullShare ((dats m 0 c).after 1 t) from by
    unfold Dat.leavesExact; rw [live_w t], after_w]
  rw [show (dats m 0 c).leavesExact 2 t = owns (c : Thread nD τ) (mB t) fullShare ((dats m 0 c).after 2 t) from by
    unfold Dat.leavesExact; rw [live_bias t], after_bias]
  rw [show (dats m 0 c).leavesExact 3 t = owns (c : Thread nD τ) (mA t) fullShare ((dats m 0 c).after 3 t) from by
    unfold Dat.leavesExact; rw [live_adj t], after_adj]
  have hN : t.val < 20 := lt_of_lt_of_eq t.isLt N_0
  by_cases h1 : 4 ≤ t.val
  · rw [show (dats m 0 c).leavesExact 4 t = owns (c : Thread nD τ) (mO t) fullShare ((dats m 0 c).after 4 t) from by
      unfold Dat.leavesExact; rw [live_out t h1], after_out]
    by_cases h0 : t.val < 16
    · iintro ⟨⟨⟨%S, %hS, HS⟩, Hg⟩, Ho, ⟨%d0, H0⟩, ⟨%d1, H1⟩, ⟨%d2, H2⟩, ⟨%d3, H3⟩, ⟨%d4, H4⟩⟩
      have e : mixOut (grid0.coords t) ((mix_iff t).mpr h1) (bB m c t) (bA m c t)
            (fillInto (grid0.coords t) ((fill_iff t).mpr h0) (bX m c t) (bW m c t) S) = outBlock m c t := by
        unfold mixOut outBlock
        exact congrArg (fun s => k0_pay2 (bA m c t) s (bB m c t)) (ld_slab m c t h1 (t.val + 1) (Or.inr rfl) _ (holds_fill m c t h0 S hS))
      iapply (run_both c (grid0.coords t) _ _ _ _ _ _ _ _ _ _ _ _ ((fill_iff t).mpr h0) ((mix_iff t).mpr h1) (bX m c t) (bW m c t) (bB m c t) (bA m c t) S Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iexists _; isplitr; swap; · iexact HS
          ipureintro; exact holds_fill m c t h0 S hS
        iexact Hg
      isplitl [Ho]; · iexact Ho
      isplitl [H0]; · iexact H0
      isplitl [H1]; · iexact H1
      isplitl [H2]; · iexact H2
      isplitl [H3]; · iexact H3
      rw [← e]; iexact H4
    · iintro ⟨⟨⟨%S, %hS, HS⟩, Hg⟩, Ho, ⟨%d0, H0⟩, ⟨%d1, H1⟩, ⟨%d2, H2⟩, ⟨%d3, H3⟩, ⟨%d4, H4⟩⟩
      have e : mixOut (grid0.coords t) ((mix_iff t).mpr h1) (bB m c t) (bA m c t) S = outBlock m c t := by
        unfold mixOut outBlock
        exact congrArg (fun s => k0_pay2 (bA m c t) s (bB m c t)) (ld_slab m c t h1 t.val (Or.inl rfl) S hS)
      iapply (run_mix c (grid0.coords t) _ _ _ _ _ _ _ _ _ _ _ _ (fun h => h0 ((fill_iff t).mp h)) ((mix_iff t).mpr h1) (bX m c t) (bW m c t) (bB m c t) (bA m c t) S Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iexists _; isplitr; swap; · iexact HS
          ipureintro; exact holds_keep m c t.val (by omega) S hS
        iexact Hg
      isplitl [Ho]; · iexact Ho
      isplitl [H0]; · iexact H0
      isplitl [H1]; · iexact H1
      isplitl [H2]; · iexact H2
      isplitl [H3]; · iexact H3
      rw [← e]; iexact H4
  · have h4 : t.val < 4 := by omega
    rw [Dat.leavesExact_idle (dats m 0 c) 4 t (idle_out t h4) (noflush_out t h4)]
    iintro ⟨⟨⟨%S, %hS, HS⟩, Hg⟩, Ho, ⟨%d0, H0⟩, ⟨%d1, H1⟩, ⟨%d2, H2⟩, ⟨%d3, H3⟩, ⟨%d4, H4⟩⟩
    iapply (run_fill c (grid0.coords t) _ _ _ _ _ _ _ _ _ _ _ _ ((fill_iff t).mpr (by omega)) (fun h => h1 ((mix_iff t).mp h)) (bX m c t) (bW m c t) (bB m c t) (bA m c t) S _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr; swap; · iexact HS
        ipureintro; exact holds_fill m c t (by omega) S hS
      iexact Hg
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch holds anything, and nothing is asked of it. -/
theorem enter (c : Dev nD) : Pipeline.ΦA spec0 c ⊢ (dats m 0 c).Φ 0 := by
  rw [show (dats m 0 c).Φ 0 = PhiAt m c 0 from rfl, scratch_any]
  unfold PhiAt
  iintro ⟨⟨%d, HS⟩, Hg⟩
  isplitl [HS]
  · iexists d; isplitr; swap; · iexact HS
    ipureintro; exact holds_zero m c d
  iexact Hg

/-- After the last point what the scratch holds is forgotten. -/
theorem leave (c : Dev nD) : (dats m 0 c).Φ (Fin.last cfg0.N) ⊢ Pipeline.ΦA spec0 c := by
  rw [show (dats m 0 c).Φ (Fin.last cfg0.N) = PhiAt m c (Fin.last cfg0.N).val from rfl, scratch_any]
  unfold PhiAt
  iintro ⟨⟨%S, -, HS⟩, Hg⟩
  isplitl [HS]
  · iexists S; iexact HS
  iexact Hg

set_option backward.isDefEq.respectTransparency.types false in
/-- Every weakly fair execution of the program terminates without a fault, every array of the pipeline ending at
    what the write-backs of the proof data's blocks leave, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The program runs and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KiBlocks.lean ====
/-
  Each input block of the layer's kernel, read at an index, is its argument array read at the shifted index: point `p`
  fetches feature rows `(p % 4)·1024 ..` of graph `p / 4` (phases 0..3), the whole weight, the bias row, and adjacency
  rows `(t % 4)·1024 ..` of graph `t / 4 - 1` (phases 1..4). The block index maps are clamped at the ends of the grid
  (phase 4 fetches a feature block, phase 0 an adjacency block, that no half of the body reads); the statements here are
  for the phases where the block is read.
-/
import proofs.«177299_g15573551415441_cont_week2b_14_32_alg».proof.Proof.KiData
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The block index maps over the grid -/

/-- In phases 0..3 the feature window is at graph `t / 4`, row block `t % 4`. -/
theorem idx_x : ∀ t : Fin cfg0.N, t.val < 16 → win0_0.index t (0 : Fin 3) = t.val / 4 ∧ win0_0.index t (1 : Fin 3) = t.val % 4 ∧ win0_0.index t (2 : Fin 3) = 0 :=
  (by decide +kernel : ∀ t : Fin grid0.N, t.val < 16 → win0_0.index t (0 : Fin 3) = t.val / 4 ∧ win0_0.index t (1 : Fin 3) = t.val % 4 ∧ win0_0.index t (2 : Fin 3) = 0)
/-- The weight window never moves. -/
theorem idx_w : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Nor does the bias window. -/
theorem idx_b : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- In phases 1..4 the adjacency window is at graph `t / 4 - 1`, row block `t % 4`, -/
theorem idx_a : ∀ t : Fin cfg0.N, 4 ≤ t.val → win0_3.index t (0 : Fin 3) = t.val / 4 - 1 ∧ win0_3.index t (1 : Fin 3) = t.val % 4 ∧ win0_3.index t (2 : Fin 3) = 0 :=
  (by decide +kernel : ∀ t : Fin grid0.N, 4 ≤ t.val → win0_3.index t (0 : Fin 3) = t.val / 4 - 1 ∧ win0_3.index t (1 : Fin 3) = t.val % 4 ∧ win0_3.index t (2 : Fin 3) = 0)
/-- and the output window with it. -/
theorem idx_o : ∀ t : Fin cfg0.N, 4 ≤ t.val → win0_4.index t (0 : Fin 3) = t.val / 4 - 1 ∧ win0_4.index t (1 : Fin 3) = t.val % 4 ∧ win0_4.index t (2 : Fin 3) = 0 :=
  (by decide +kernel : ∀ t : Fin grid0.N, 4 ≤ t.val → win0_4.index t (0 : Fin 3) = t.val / 4 - 1 ∧ win0_4.index t (1 : Fin 3) = t.val % 4 ∧ win0_4.index t (2 : Fin 3) = 0)

/-! ## The blocks read at an index -/

/-- A filling point's feature block is rows `(p % 4)·1024 ..` of graph `p / 4`. -/
theorem bX_at (c : Dev nD) (p : Fin cfg0.N) (hp : p.val < 16) (y : S1x1024x512.Idx) (i : S4x4096x512.Idx)
    (h0 : (i 0).val = p.val / 4) (h1 : (i 1).val = (p.val % 4) * 1024 + (y 1).val) (h2 : (i 2).val = (y 2).val) :
    bX m c p y = m ((c.tc : Thread nD τ).loc main_arg0) i := by
  obtain ⟨e0, e1, e2⟩ := idx_x p hp
  show V m c main_arg0 (((cfg0.win 0).blk p).view.emb y) = _
  rw [V_main_arg0]
  refine congrArg _ (funext fun a => Fin.ext ?_)
  match a with
  | ⟨0, _⟩ => show win0_0.index p (0 : Fin 3) * 1 + 1 * (y 0).val = (i 0).val; have hy : (y 0).val < 1 := (y 0).isLt; omega
  | ⟨1, _⟩ => show win0_0.index p (1 : Fin 3) * 1024 + 1 * (y 1).val = (i 1).val; omega
  | ⟨2, _⟩ => show win0_0.index p (2 : Fin 3) * 512 + 1 * (y 2).val = (i 2).val; omega

/-- The weight block is the weight. -/
theorem bW_at (c : Dev nD) (t : Fin cfg0.N) (y : S512x512.Idx) :
    bW m c t y = m ((c.tc : Thread nD τ).loc main_arg2) y := by
  obtain ⟨e0, e1⟩ := idx_w t
  show V m c main_arg2 (((cfg0.win 1).blk t).view.emb y) = _
  rw [V_main_arg2]
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The bias block is the bias, as one row. -/
theorem bB_at (c : Dev nD) (t : Fin cfg0.N) (y : S1x512.Idx) (i : S512.Idx) (h : (i 0).val = (y 1).val) :
    bB m c t y = m ((c.tc : Thread nD τ).loc main_arg3) i := by
  have e : (V m c main_v0 : S1x512.Idx → Elt F .f32)
      = shapeCast S1x512 (m ((c.tc : Thread nD τ).loc main_arg3)) Facts₀.shapeCasts_S512_S1x512 := by
    dsimp only [V, hostOps0]; after_results; rfl
  obtain ⟨e0, e1⟩ := idx_b t
  show V m c main_v0 (((cfg0.win 2).blk t).view.emb y) = _
  rw [e]
  refine shapeCast_apply _ _ _ i ?_
  rw [Shape.rowMajor_val_two, Shape.rowMajor_val_one]
  show (i 0).val = (win0_2.index t (0 : Fin 2) * 1 + 1 * (y 0).val) * 512 + (win0_2.index t (1 : Fin 2) * 512 + 1 * (y 1).val)
  have hy : (y 0).val < 1 := (y 0).isLt
  omega

/-- A mixing point's adjacency block is rows `(t % 4)·1024 ..` of graph `t / 4 - 1`. -/
theorem bA_at (c : Dev nD) (t : Fin cfg0.N) (ht : 4 ≤ t.val) (y : S1x1024x4096.Idx) (i : S4x4096x4096.Idx)
    (h0 : (i 0).val = t.val / 4 - 1) (h1 : (i 1).val = (t.val % 4) * 1024 + (y 1).val) (h2 : (i 2).val = (y 2).val) :
    bA m c t y = m ((c.tc : Thread nD τ).loc main_arg1) i := by
  obtain ⟨e0, e1, e2⟩ := idx_a t ht
  show V m c main_arg1 (((cfg0.win 3).blk t).view.emb y) = _
  rw [V_main_arg1]
  refine congrArg _ (funext fun a => Fin.ext ?_)
  match a with
  | ⟨0, _⟩ => show win0_3.index t (0 : Fin 3) * 1 + 1 * (y 0).val = (i 0).val; have hy : (y 0).val < 1 := (y 0).isLt; omega
  | ⟨1, _⟩ => show win0_3.index t (1 : Fin 3) * 1024 + 1 * (y 1).val = (i 1).val; omega
  | ⟨2, _⟩ => show win0_3.index t (2 : Fin 3) * 4096 + 1 * (y 2).val = (i 2).val; omega

end Cert.KernelIdeal.Body

end
-- ==== Proof.PayValue.lean ====
/-
  The two payloads of the kernel body, read at one index on the extended reals.

  The first payload is a block of 1024 rows of the node features through the weight: at row `r` and output
  feature `o` it is `Σ_f x[0, r, f] · W[f, o]`. The second is the same block of rows of the adjacency against
  the stored support of all 4096 nodes, plus the bias row: at `(r, o)` it is
  `(Σ_k adj[0, r, k] · s[0, k, o]) + bias[0, o]`.

  On the extended reals a change of format is the identity, a matrix product into the zero accumulator is the
  plain sum of the products over the contracted axis, and the casts between `[1, a, b]` and `[a, b]` only
  add or drop the unit coordinate; so each payload unfolds to its sum one operation at a time.
-/
import proofs.«177299_g15573551415441_cont_week2b_14_32_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The feature product `[1024, 512] × [512, 512]`: which entries it reads -/

/-- The left operand's row is the output's row. -/
theorem lhs_feat_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column is the contracted coordinate. -/
theorem lhs_feat_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row is the contracted coordinate. -/
theorem rhs_feat_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column is the output's column. -/
theorem rhs_feat_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The feature product into the zero accumulator, at `(r, o)`: `Σ_f a[r, f] · b[f, o]`. -/
theorem feat_matmul_apply (a : FVec Ideal S1024x512 .bf16) (b : FVec Ideal S512x512 .bf16) (r : Fin 1024) (o : Fin 512) :
    matmul dot_S1024x512_S512x512_S1024x512_1_0_0_1_n_n none a b (constant (F := Ideal) S1024x512 .f32 0x00000000#32) (ix2 r o)
      = ∑ f : Fin 512, a (ix2 r f) * b (ix2 f o) := by
  show FloatOps.matmul dot_S1024x512_S512x512_S1024x512_1_0_0_1_n_n none a b (constant (F := Ideal) S1024x512 .f32 0x00000000#32) (ix2 r o) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r o) ((contrEquiv1 dot_S1024x512_S512x512_S1024x512_1_0_0_1_n_n 512 rfl rfl).symm k) = ix2 r k := funext fun c => Fin.ext (by
    match c with
    | ⟨0, _⟩ => exact lhs_feat_0 _ _
    | ⟨1, _⟩ => exact (lhs_feat_1 _ _).trans hk)
  have er : dot_S1024x512_S512x512_S1024x512_1_0_0_1_n_n.rhsIdx (ix2 r o) ((contrEquiv1 dot_S1024x512_S512x512_S1024x512_1_0_0_1_n_n 512 rfl rfl).symm k) = ix2 k o := funext fun c => Fin.ext (by
    match c with
    | ⟨0, _⟩ => exact (rhs_feat_0 _ _).trans hk
    | ⟨1, _⟩ => exact rhs_feat_1 _ _)
  rw [el, er]

/-! ## The neighbourhood product `[1024, 4096] × [4096, 512]`: which entries it reads -/

/-- The left operand's row is the output's row. -/
theorem lhs_nbr_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
/-- The left operand's column is the contracted coordinate. -/
theorem lhs_nbr_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
/-- The right operand's row is the contracted coordinate. -/
theorem rhs_nbr_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
/-- The right operand's column is the output's column. -/
theorem rhs_nbr_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The neighbourhood product into the zero accumulator, at `(r, o)`: `Σ_k a[r, k] · b[k, o]`. -/
theorem nbr_matmul_apply (a : FVec Ideal S1024x4096 .bf16) (b : FVec Ideal S4096x512 .bf16) (r : Fin 1024) (o : Fin 512) :
    matmul dot_S1024x4096_S4096x512_S1024x512_1_0_0_1_n_n none a b (constant (F := Ideal) S1024x512 .f32 0x00000000#32) (ix2 r o)
      = ∑ k : Fin 4096, a (ix2 r k) * b (ix2 k o) := by
  show FloatOps.matmul dot_S1024x4096_S4096x512_S1024x512_1_0_0_1_n_n none a b (constant (F := Ideal) S1024x512 .f32 0x00000000#32) (ix2 r o) = _
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 r o) ((contrEquiv1 dot_S1024x4096_S4096x512_S1024x512_1_0_0_1_n_n 4096 rfl rfl).symm k) = ix2 r k := funext fun c => Fin.ext (by
    match c with
    | ⟨0, _⟩ => exact lhs_nbr_0 _ _
    | ⟨1, _⟩ => exact (lhs_nbr_1 _ _).trans hk)
  have er : dot_S1024x4096_S4096x512_S1024x512_1_0_0_1_n_n.rhsIdx (ix2 r o) ((contrEquiv1 dot_S1024x4096_S4096x512_S1024x512_1_0_0_1_n_n 4096 rfl rfl).symm k) = ix2 k o := funext fun c => Fin.ext (by
    match c with
    | ⟨0, _⟩ => exact (rhs_nbr_0 _ _).trans hk
    | ⟨1, _⟩ => exact rhs_nbr_1 _ _)
  rw [el, er]

/-! ## The payloads at an index -/

/-- The first payload at `(0, r, o)`: `Σ_f x[0, r, f] · W[f, o]`. -/
theorem pay1_apply (v7 : Vec Ideal S1x1024x512 .f32) (v10 : Vec Ideal S512x512 .f32) (r : Fin 1024) (o : Fin 512) :
    k0_pay1 (F := Ideal) v7 v10 (ix3 (0 : Fin 1) r o) = ∑ f : Fin 512, v7 (ix3 (0 : Fin 1) r f) * v10 (ix2 f o) := by
  unfold k0_pay1
  refine (shapeCast_ab_1ab_apply _ shapeCasts_S1024x512_S1x1024x512 (0 : Fin 1) r o).trans ?_
  refine (truncf_apply _ bitsLt_bf16_f32 (ix2 r o)).trans ?_
  refine (feat_matmul_apply _ _ r o).trans ?_
  refine Finset.sum_congr rfl fun f _ => ?_
  rw [truncf_apply, truncf_apply, shapeCast_1ab_ab_apply]

/-- The second payload at `(0, r, o)`: `(Σ_k adj[0, r, k] · s[0, k, o]) + bias[0, o]`. -/
theorem pay2_apply (v8 : Vec Ideal S1x1024x4096 .f32) (v12 : Vec Ideal S1x4096x512 .bf16) (v15 : Vec Ideal S1x512 .f32) (r : Fin 1024) (o : Fin 512) :
    k0_pay2 (F := Ideal) v8 v12 v15 (ix3 (0 : Fin 1) r o)
      = (∑ k : Fin 4096, v8 (ix3 (0 : Fin 1) r k) * v12 (ix3 (0 : Fin 1) k o)) + v15 (ix2 (0 : Fin 1) o) := by
  unfold k0_pay2
  refine (shapeCast_ab_1ab_apply _ shapeCasts_S1024x512_S1x1024x512 (0 : Fin 1) r o).trans ?_
  refine (addf_apply _ _ (ix2 r o)).trans ?_
  rw [nbr_matmul_apply, broadcastTo_1b_ab_apply, shapeCast_self]
  congr 1
  refine Finset.sum_congr rfl fun k _ => ?_
  rw [truncf_apply, shapeCast_1ab_ab_apply, shapeCast_1ab_ab_apply]

end Cert.KernelIdeal.PayValue

end
-- ==== Proof.Spec.lean ====
/-
  The mathematics both programs compute, as one function of the four argument arrays, index by index, on the
  extended reals. A graph-convolution layer over a batch of 4 graphs of 4096 nodes with 512 features in and out:
  for graph `b`, node `n`, output feature `o`,

      out[b, n, o] = (Σ_k adj[b, n, k] · support[b, k, o]) + bias[o],    support[b, k, o] = Σ_f x[b, k, f] · W[f, o].

  Both programs group the sums this way (first the feature product, then the neighbourhood product), so no
  distributivity is needed and nothing here depends on the entries being finite.
-/
import Idealize.ShloMosaic.PureOps.Ideal
import Idealize.ShloMosaic.Lib.ValueIdx

noncomputable section

open scoped BigOperators

namespace Cert.Spec

open Idealize.ShloMosaic Idealize.ShloMosaic.ValueIdx

/-- The node features, `4 × 4096 × 512`. -/
abbrev SX : Shape := ⟨3, ![4, 4096, 512]⟩
/-- The dense adjacency, `4 × 4096 × 4096`. -/
abbrev SA : Shape := ⟨3, ![4, 4096, 4096]⟩
/-- The weight, `512 × 512`. -/
abbrev SW : Shape := ⟨2, ![512, 512]⟩
/-- The bias, `512`. -/
abbrev SB : Shape := ⟨1, ![512]⟩

/-- `support[b, k, o] = Σ_f x[b, k, f] · W[f, o]`: the features of node `k` of graph `b` through the weight. -/
def support (x : FVec Ideal SX .f32) (W : FVec Ideal SW .f32) (b : Fin 4) (k : Fin 4096) (o : Fin 512) : EReal :=
  ∑ f : Fin 512, x (ix3 b k f) * W (ix2 f o)

/-- The layer: `out[b, n, o] = (Σ_k adj[b, n, k] · support[b, k, o]) + bias[o]`. -/
def gcn (x : FVec Ideal SX .f32) (adj : FVec Ideal SA .f32) (W : FVec Ideal SW .f32) (bias : FVec Ideal SB .f32) :
    FVec Ideal SX .f32 :=
  fun j => (∑ k : Fin 4096, adj (ix3 (j 0) (j 1) k) * support x W (j 0) k (j 2)) + bias (ix1 (j 2))

end Cert.Spec

end
-- ==== Proof.KiValue.lean ====
/-
  The block a mixing point stores is the layer of the specification, read off the argument arrays as launched.

  A mixing point `t` (phases 1..4) works on graph `g = t / 4 - 1` and on the 1024 output rows
  `(t % 4)·1024 ..` of it. Its block at row `r`, feature `o` is
  `(Σ_k A[r, k] · slab[k, o]) + b[o]`, with `A` its adjacency rows, `b` the bias row and `slab` the products
  stored by the four filling points `4g .. 4g + 3` of the phase before. Row `k` of the slab comes from filling
  point `p = 4g + k / 1024`, at its local row `k % 1024`, and that point's feature rows are rows
  `(p % 4)·1024 ..` of graph `p / 4`; since `p / 4 = g` and `(p % 4)·1024 + k % 1024 = k`, the slab's entry is
  `Σ_f x[g, k, f] · W[f, o]`: the support of node `k` of graph `g`. The adjacency rows are rows
  `(t % 4)·1024 + r` of graph `g` and the bias row is the bias, so the block is the layer at
  `(g, (t % 4)·1024 + r, o)`.
-/
import proofs.«177299_g15573551415441_cont_week2b_14_32_alg».proof.Proof.KiBlocks
import proofs.«177299_g15573551415441_cont_week2b_14_32_alg».proof.Proof.PayValue
import proofs.«177299_g15573551415441_cont_week2b_14_32_alg».proof.Proof.Spec
import Idealize.ShloMosaic.Lib.ValueIdx

noncomputable section

open scoped BigOperators

namespace Cert.KernelIdeal.BodyValue

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The filling point that stored row `k` of the slab a mixing point `t` reads: it is a filling point, of the
    graph the mixing point works on, and its local row `k % 1024` is row `k` of that graph. -/
theorem source_point (t k : ℕ) (ht4 : 4 ≤ t) (ht : t < 20) (hk : k < 4096) :
    4 * (t / 4 - 1) + k / 1024 < 16 ∧ (4 * (t / 4 - 1) + k / 1024) / 4 = t / 4 - 1
      ∧ (4 * (t / 4 - 1) + k / 1024) % 4 * 1024 + k % 1024 = k := by
  omega

/-- One entry of the slab is the support: `slab[k, o] = Σ_f x[g, k, f] · W[f, o]` for the graph `g = t / 4 - 1`. -/
theorem slabAt_at (c : Dev nD) (t : Fin cfg0.N) (ht : 4 ≤ t.val) (g : Fin 4) (hg : g.val = t.val / 4 - 1)
    (k : Fin 4096) (o : Fin 512) :
    slabAt (F := Ideal) m c t (ix3 (0 : Fin 1) k o) = Cert.Spec.support (m ((c.tc : Thread nD τ).loc main_arg0)) (m ((c.tc : Thread nD τ).loc main_arg2)) g k o := by
  have htN : t.val < 20 := lt_of_lt_of_eq t.isLt N_0
  obtain ⟨hp, hq, hr⟩ := source_point t.val k.val ht htN k.isLt
  unfold slabAt Cert.KernelIdeal.Body.prod
  refine (PayValue.pay1_apply _ _ _ _).trans ?_
  unfold Cert.Spec.support
  refine Finset.sum_congr rfl fun f _ => ?_
  have hx := bX_at m c (pt (4 * (t.val / 4 - 1) + k.val / 1024) (by omega)) hp
    (ix3 (0 : Fin 1) (⟨k.val % 1024, Nat.mod_lt _ (by decide)⟩ : Fin 1024) f) (ix3 g k f)
    (hg.trans hq.symm) hr.symm rfl
  have hw := bW_at m c (pt (4 * (t.val / 4 - 1) + k.val / 1024) (by omega)) (ix2 f o)
  exact congrArg₂ (· * ·) hx hw

/-- THE BLOCK A MIXING POINT STORES, at an index, is the layer of the specification at the index of the output
    array the block's window puts it at. -/
theorem outBlock_at (m : (ℓ : Loc nD τ sig) → Buf (Elt Ideal) ℓ) (c : Dev nD) (t : Fin cfg0.N) (ht : 4 ≤ t.val)
    (y : S1x1024x512.Idx) (i : S4x4096x512.Idx)
    (h0 : (i 0).val = t.val / 4 - 1) (h1 : (i 1).val = (t.val % 4) * 1024 + (y 1).val) (h2 : (i 2).val = (y 2).val) :
    outBlock (F := Ideal) m c t y
      = Cert.Spec.gcn (m ((c.tc : Thread nD τ).loc main_arg0)) (m ((c.tc : Thread nD τ).loc main_arg1)) (m ((c.tc : Thread nD τ).loc main_arg2)) (m ((c.tc : Thread nD τ).loc main_arg3)) i := by
  obtain ⟨u, r, o, rfl⟩ : ∃ (u : Fin 1) (r : Fin 1024) (o : Fin 512), y = ix3 u r o := ⟨y 0, y 1, y 2, eq_ix3 y⟩
  obtain rfl : u = 0 := Subsingleton.elim _ _
  obtain rfl : o = i 2 := Fin.ext h2.symm
  unfold outBlock
  refine (PayValue.pay2_apply _ _ _ r (i 2)).trans ?_
  unfold Cert.Spec.gcn
  congr 1
  · refine Finset.sum_congr rfl fun k _ => ?_
    have ha := bA_at m c t ht (ix3 (0 : Fin 1) r k) (ix3 (i 0) (i 1) k) h0 h1 rfl
    have hs := slabAt_at m c t ht (i 0) h0 k (i 2)
    exact congrArg₂ (· * ·) ha hs
  · exact bB_at m c t (ix2 (0 : Fin 1) (i 2)) (ix1 (i 2)) rfl

end Cert.KernelIdeal.BodyValue

end
-- ==== Proof.KiFinal.lean ====
/-
  The idealized kernel's result array. From phase 1 on every point writes its output block back, point `t` to rows
  `(t % 4)·1024 ..` of graph `t / 4 - 1`; that block is the layer's function of the argument arrays at those rows
  (`outBlock_at`), and the sixteen blocks of phases 1..4 tile the array. (The five points that share block (0, 0) —
  phase 0 and the first point of phase 1 — write it back once, after the last of them has stored it.) So the array
  ends holding `Cert.Spec.gcn` of the arguments, and the run is re-posted with the result named.
-/
import proofs.«177299_g15573551415441_cont_week2b_14_32_alg».proof.Proof.KiOblig
import proofs.«177299_g15573551415441_cont_week2b_14_32_alg».proof.Proof.KiValue

set_option maxRecDepth 16384

noncomputable section

namespace Cert.KernelIdeal.BodyValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Body

variable (m : (ℓ : Loc nD τ sig) → Buf (Elt Ideal) ℓ) (ρ : Dev nD → PrngReg)

/-- The layer's function of the four argument arrays as launched. -/
abbrev result (c : Dev nD) : S4x4096x512.Idx → Elt Ideal .f32 :=
  Cert.Spec.gcn (m ((c.tc : Thread nD τ).loc main_arg0)) (m ((c.tc : Thread nD τ).loc main_arg1))
    (m ((c.tc : Thread nD τ).loc main_arg2)) (m ((c.tc : Thread nD τ).loc main_arg3))

/-- The output block is written back exactly at the points of phases 1..4. -/
theorem flush_iff : ∀ t : Fin cfg0.N, (cfg0.win 4).flush t = true ↔ 4 ≤ t.val :=
  (by decide +kernel : ∀ t : Fin grid0.N, (cfg0.win 4).flush t = true ↔ 4 ≤ t.val)

/-- What a point of phases 1..4 writes back is its block of the layer's function. -/
theorem flushed_eq (c : Dev nD) (t : Fin cfg0.N) (ht : 4 ≤ t.val) :
    (dats m 0 c).flushed 4 t = ((cfg0.win 4).blk t).view.read (Elt Ideal) (result m c) := by
  show (cfg0.win 4).cut (grid0.coords t) ((dats m 0 c).after 4 t) = _
  rw [after_out]
  obtain ⟨e0, e1, e2⟩ := idx_o t ht
  funext j
  show outBlock m c t j = result m c (((cfg0.win 4).blk t).view.emb j)
  refine outBlock_at m c t ht j _ ?_ ?_ ?_
  · show win0_4.index t (0 : Fin 3) * 1 + 1 * (j 0).val = _
    have hj : (j 0).val < 1 := (j 0).isLt
    omega
  · show win0_4.index t (1 : Fin 3) * 1024 + 1 * (j 1).val = _
    omega
  · show win0_4.index t (2 : Fin 3) * 512 + 1 * (j 2).val = _
    omega

/-- An index of the array is in point `t`'s block iff each coordinate is in the block's range on its axis. -/
theorem mem_blk (t : Fin cfg0.N) (i : S4x4096x512.Idx) :
    i ∈ ((cfg0.win 4).blk t).view.set ↔ ∀ a : Fin 3, win0_4.index t a * S1x1024x512.size a ≤ (i a).val ∧ (i a).val < win0_4.index t a * S1x1024x512.size a + S1x1024x512.size a := by
  show i ∈ ((View.whole main_v1).slice (win0_4.rect t)).set ↔ _
  rw [View.set_slice_whole, Rect.mem_set_unit]
  exact Iff.rfl

/-- Row `r` of graph `b` is in the block of point `4·(b + 1) + r / 1024`. -/
theorem cover (i : S4x4096x512.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 512 := (i 2).isLt
  have hq : 4 * ((i 0).val + 1) + (i 1).val / 1024 < 20 := by omega
  have hge : 4 ≤ (pt (4 * ((i 0).val + 1) + (i 1).val / 1024) hq).val := by
    show 4 ≤ 4 * ((i 0).val + 1) + (i 1).val / 1024
    omega
  refine ⟨pt _ hq, (flush_iff _).mpr hge, ?_⟩
  obtain ⟨e0, e1, e2⟩ := idx_o (pt _ hq) hge
  have v : (pt (4 * ((i 0).val + 1) + (i 1).val / 1024) hq).val = 4 * ((i 0).val + 1) + (i 1).val / 1024 := rfl
  rw [v] at e0 e1
  rw [mem_blk]
  intro a
  match a with
  | ⟨0, _⟩ =>
    show win0_4.index (pt _ hq) (0 : Fin 3) * 1 ≤ (i 0).val ∧ (i 0).val < win0_4.index (pt _ hq) (0 : Fin 3) * 1 + 1
    rw [e0]; omega
  | ⟨1, _⟩ =>
    show win0_4.index (pt _ hq) (1 : Fin 3) * 1024 ≤ (i 1).val ∧ (i 1).val < win0_4.index (pt _ hq) (1 : Fin 3) * 1024 + 1024
    rw [e1]; omega
  | ⟨2, _⟩ =>
    show win0_4.index (pt _ hq) (2 : Fin 3) * 512 ≤ (i 2).val ∧ (i 2).val < win0_4.index (pt _ hq) (2 : Fin 3) * 512 + 512
    rw [e2]; omega

/-- The result array after the run is the layer's function of the arguments. -/
theorem final (c : Dev nD) : (dats m 0 c).arrAt 4 cfg0.N = result m c :=
  (dats m 0 c).arrAt_eq_of_cover 4 (result m c) (fun t hf => flushed_eq m c t ((flush_iff t).mp hf)) cover

/-- The idealized kernel runs, ends with its result array at the layer's function of the arguments, and leaves the
    arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.BodyValue

end
-- ==== Proof.RefValue.lean ====
/-
  The reference program, read index by index on the extended reals, is the graph-convolution layer of the
  specification: its first contraction is the feature product `support`, its second the neighbourhood product over
  `support`, and the two broadcasts of the bias read `bias` at the output feature.
-/
import proofs.«177299_g15573551415441_cont_week2b_14_32_alg».proof.Proof.Gen.ReferenceIdeal.Read
import proofs.«177299_g15573551415441_cont_week2b_14_32_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The adjacency entry the neighbourhood product reads for output `i` and neighbour `k` is `adj[i₀, i₁, k]`. -/
theorem lidx1_eq (i : S4x4096x512.Idx) (k : Fin 4096) : lidx_main_v1 i k = ix3 (i 0) (i 1) k :=
  funext fun a => Fin.ext (by match a with | ⟨0, _⟩ => rfl | ⟨1, _⟩ => rfl | ⟨2, _⟩ => rfl)

/-- The feature entry the inner product reads, at the position the neighbourhood product asks for, is `x[i₀, k, f]`. -/
theorem lidx0_eq (i : S4x4096x512.Idx) (k : Fin 4096) (f : Fin 512) :
    lidx_main_v0 (ridx_main_v1 i k) f = ix3 (i 0) k f :=
  funext fun a => Fin.ext (by match a with | ⟨0, _⟩ => rfl | ⟨1, _⟩ => rfl | ⟨2, _⟩ => rfl)

/-- The weight entry the inner product reads there is `W[f, i₂]`. -/
theorem ridx0_eq (i : S4x4096x512.Idx) (k : Fin 4096) (f : Fin 512) :
    ridx_main_v0 (ridx_main_v1 i k) f = ix2 f (i 2) :=
  funext fun a => Fin.ext (by match a with | ⟨0, _⟩ => rfl | ⟨1, _⟩ => rfl)

/-- The two broadcasts of the bias read it at the output feature: `bias[i₂]`. -/
theorem idx23_eq (i : S4x4096x512.Idx) : idx_main_v2 (idx_main_v3 i) = ix1 (i 2) :=
  funext fun a => Fin.ext (by match a with | ⟨0, _⟩ => rfl)

/-- The reference's result is the layer of the specification. -/
theorem ref_eq (x : FVec Ideal Cert.Spec.SX .f32) (adj : FVec Ideal Cert.Spec.SA .f32)
    (W : FVec Ideal Cert.Spec.SW .f32) (bias : FVec Ideal Cert.Spec.SB .f32) :
    Cert.ReferenceIdeal.Read.val_main_v4 (F := Ideal) x adj W bias = Cert.Spec.gcn x adj W bias := by
  funext i
  rw [val_main_v4_apply, val_main_v1_apply, val_main_v3_apply, val_main_v2_apply, Ideal.addf_def, idx23_eq]
  unfold Cert.Spec.gcn Cert.Spec.support
  congr 1
  refine Finset.sum_congr rfl fun k _ => ?_
  rw [val_main_v0_apply, lidx1_eq]
  congr 1
  refine Finset.sum_congr rfl fun f _ => ?_
  rw [lidx0_eq, ridx0_eq]
  rfl

end Cert.ReferenceIdeal.RefValue

end
-- ==== Proof.lean ====
/-
  The certificate of a graph-convolution layer, `out[b] = adj[b] · (x[b] · W) + bias` over a batch of 4 dense graphs of
  4096 nodes with 512 features in and out, computed by ONE kernel on a grid of 5 phases × 4 row blocks against two
  batched matrix products on the host.

  The kernel is a software pipeline one phase deep. In phase `b ≤ 3` each point multiplies 1024 feature rows of graph
  `b` by the weight and keeps the product in a scratch of two slots (slot `b % 2`); in phase `b ≥ 1` each point multiplies
  1024 adjacency rows of graph `b - 1` by the whole product of graph `b - 1`, which the phase before left complete in the
  other slot, adds the bias and writes the block out. On the extended reals the narrowing of the operands is the identity
  and each matrix product into a zero accumulator is the plain sum of products, so the kernel's block is, entry by entry,
  `(Σ_k adj[b, n, k] · Σ_f x[b, k, f] · W[f, o]) + bias[o]`: the reference's two products and its broadcast sum, grouped the
  same way. No algebraic law beyond that reading is needed, and the precondition (finite inputs) is not used.

  The frames of the two printed kernels (the same text, read at the two instances) are proved from the body's run at a
  point in each of its three phases and an invariant that says what the scratch holds from point to point (Proof/KiRuns,
  KiData, KiOblig; Proof/KRuns … for the word-level program). The idealized kernel's value is read off that run
  (Proof/KiBlocks, KiValue, KiFinal over the payload lemmas of Proof/PayValue), the reference's off its generated run
  (Proof/RefValue), both against Proof/Spec.
-/
import proofs.«177299_g15573551415441_cont_week2b_14_32_alg».proof.Defs
import proofs.«177299_g15573551415441_cont_week2b_14_32_alg».proof.Proof.Gen.Kernel
import proofs.«177299_g15573551415441_cont_week2b_14_32_alg».proof.Proof.Gen.KernelIdeal
import proofs.«177299_g15573551415441_cont_week2b_14_32_alg».proof.Proof.Gen.ReferenceIdeal
import proofs.«177299_g15573551415441_cont_week2b_14_32_alg».proof.Proof.Gen.ReferenceIdeal.Run
import proofs.«177299_g15573551415441_cont_week2b_14_32_alg».proof.Proof.Gen.ReferenceIdeal.Read
import proofs.«177299_g15573551415441_cont_week2b_14_32_alg».proof.Proof.Gen.Pre_finite_inputs
import proofs.«177299_g15573551415441_cont_week2b_14_32_alg».proof.Proof.KOblig
import proofs.«177299_g15573551415441_cont_week2b_14_32_alg».proof.Proof.KiFinal
import proofs.«177299_g15573551415441_cont_week2b_14_32_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both idealized programs end with the layer's function of the (agreeing) arguments. -/
theorem algebraic : Cert.algebraic_KernelIdeal_ReferenceIdeal := by
  intro m ρ m' ρ' _ hagree
  refine ⟨fun c => Cert.KernelIdeal.BodyValue.result m c, Cert.KernelIdeal.BodyValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
